-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S2x1600000 : Shape := ⟨2, ![2, 1600000]⟩
abbrev S1600000 : Shape := ⟨1, ![1600000]⟩
abbrev S1000x128 : Shape := ⟨2, ![1000, 128]⟩
abbrev S128x128 : Shape := ⟨2, ![128, 128]⟩
abbrev S128 : Shape := ⟨1, ![128]⟩
abbrev S_ : Shape := ⟨0, ![]⟩

class Facts : Prop where
  bcast_S_S1600000 : S_.BroadcastsInDim S1600000 (![] : Fin 0 → Fin S1600000.rank)
  reducesTo_S1600000_S_d0 : S1600000.ReducesTo [0] S_
  h_S_ : 0 < S_.numel
  bcast_S_S1000x128 : S_.BroadcastsInDim S1000x128 (![] : Fin 0 → Fin S1000x128.rank)
  reducesTo_S1000x128_S_d0_1 : S1000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S50000 : S_.BroadcastsInDim S50000 (![] : Fin 0 → Fin S50000.rank)
  reducesTo_S50000_S_d0 : S50000.ReducesTo [0] S_

variable [Facts]

def fn_part2 {F : FTy → Type} [FloatOps F] (main_v28 : IVec S_ 1) (main_v33 : IVec S50000 1) : IVec S_ 1 :=
  let main_c_12 : IVec S_ 1 := constantI S_ 1 1#1
  let main_v34 : IVec S_ 1 := (fun x v => Host.reduce IntOp.andi x v reducesTo_S50000_S_d0 h_S_) main_v33 main_c_12
  let main_v35 : IVec S_ 1 := andi main_v28 main_v34
  main_v35

def fn_part1 {F : FTy → Type} [FloatOps F] (main_arg0 : IVec S50000 32) (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_c_10 : IVec S_ 32 := constantI S_ 32 0#32
  let main_v29 : IVec S50000 32 := broadcastInDim S50000 ![] bcast_S_S50000 main_c_10
  let main_v30 : IVec S50000 1 := cmpi .sge main_arg0 main_v29
  let main_c_11 : IVec S_ 32 := constantI S_ 32 1000#32
  let main_v31 : IVec S50000 32 := broadcastInDim S50000 ![] bcast_S_S50000 main_c_11
  let main_v32 : IVec S50000 1 := cmpi .slt main_arg0 main_v31
  let main_v33 : IVec S50000 1 := andi main_v30 main_v32
  fn_part2 (F := F) main_v28 main_v33

def fn {F : FTy → Type} [FloatOps F] (main_arg0 : IVec S50000 32) (main_arg1 : IVec S2x1600000 32) (main_arg2 : FVec F S1600000 .f32) (main_arg3 : FVec F S1000x128 .f32) (main_arg4 : FVec F S128x128 .f32) (main_arg5 : FVec F S128 .f32) (main_arg6 : FVec F S128x128 .f32) (main_arg7 : FVec F S128 .f32) : IVec S_ 1 :=
  let main_v0 : FVec F S1600000 .f32 := Host.absf main_arg2
  let main_cst : FVec F S_ .f32 := constant S_ .f32 0x7F800000#32
  let main_v1 : FVec F S1600000 .f32 := broadcastInDim S1600000 ![] bcast_S_S1600000 main_cst
  let main_v2 : IVec S1600000 1 := cmpf .olt main_v0 main_v1
  let main_c : IVec S_ 1 := constantI S_ 1 1#1
  let main_v3 : IVec S_ 1 := (fun x v => Host.reduce IntOp.andi x v reducesTo_S1600000_S_d0 h_S_) main_v2 main_c
  let main_v4 : FVec F S1000x128 .f32 := Host.absf main_arg3
  let main_cst_0 : FVec F S_ .f32 := constant S_ .f32 0x7F800000#32
  let main_v5 : FVec F S1000x128 .f32 := broadcastInDim S1000x128 ![] bcast_S_S1000x128 main_cst_0
  let main_v6 : IVec S1000x128 1 := cmpf .olt main_v4 main_v5
  let main_c_1 : IVec S_ 1 := constantI S_ 1 1#1
  let main_v7 : IVec S_ 1 := (fun x v => Host.reduce IntOp.andi x v reducesTo_S1000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg0 main_arg6 main_arg7 main_v13 main_v16
-- ==== Kernel.lean ====
abbrev S50000 : Shape := ⟨1, ![50000]⟩
abbrev S2x1600000 : Shape := ⟨2, ![2, 1600000]⟩
abbrev S1600000 : Shape := ⟨1, ![1600000]⟩
abbrev S1000x128 : Shape := ⟨2, ![1000, 128]⟩
abbrev S128x128 : Shape := ⟨2, ![128, 128]⟩
abbrev S128 : Shape := ⟨1, ![128]⟩
abbrev S1x1600000 : Shape := ⟨2, ![1, 1600000]⟩
abbrev S1650000 : Shape := ⟨1, ![1650000]⟩
abbrev S_ : Shape := ⟨0, ![]⟩
abbrev S1650000x1 : Shape := ⟨2, ![1650000, 1]⟩
abbrev S50000x1 : Shape := ⟨2, ![50000, 1]⟩
abbrev S50000x128 : Shape := ⟨2, ![50000, 128]⟩
abbrev S2000x1 : Shape := ⟨2, ![2000, 1]⟩
abbrev S2000x128 : Shape := ⟨2, ![2000, 128]⟩
abbrev S2000x1000 : Shape := ⟨2, ![2000, 1000]⟩
abbrev S5000x128 : Shape := ⟨2, ![5000, 128]⟩
abbrev S1650000x128 : Shape := ⟨2, ![1650000, 128]⟩
abbrev S1x128 : Shape := ⟨2, ![1, 128]⟩

abbrev nBuf : Space → Nat
  | .hbm => 95
  | .vmem => 15
  | .smem => 0
  | _ => 0

abbrev bufTy : (tb : Table) → Fin (tcTables nBuf tb) → BufTy
  | .hbm, ⟨0, _⟩ => ⟨S50000, .i32⟩
  | .hbm, ⟨1, _⟩ => ⟨S2x1600000, .i32⟩
  | .hbm, ⟨2, _⟩ => ⟨S1600000, .f32⟩
  | .hbm, ⟨3, _⟩ => ⟨S1000x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S50000, .i32⟩
  | .hbm, ⟨9, _⟩ => ⟨S1x1600000, .i32⟩
  | .hbm, ⟨10, _⟩ => ⟨S1600000, .i32⟩
  | .hbm, ⟨11, _⟩ => ⟨S1650000, .i32⟩
  | .hbm, ⟨12, _⟩ => ⟨S1x1600000, .i32⟩
  | .hbm, ⟨13, _⟩ => ⟨S1600000, .i32⟩
  | .hbm, ⟨14, _⟩ => ⟨S1650000, .i32⟩
  | .hbm, ⟨15, _⟩ => ⟨S_, .f32⟩
  | .hbm, ⟨16, _⟩ => ⟨S50000, .f32⟩
  | .hbm, ⟨17, _⟩ => ⟨S1650000, .f32⟩
  | .hbm, ⟨18, _⟩ => ⟨S_, .f32⟩
  | .hbm, ⟨19, _⟩ => ⟨S50000, .f32⟩
  | .hbm, ⟨20, _⟩ => ⟨S1650000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S1650000, .i32⟩
  | .hbm, ⟨32, _⟩ => ⟨S1650000, .i1⟩
  | .hbm, ⟨33, _⟩ => ⟨S_, .i32⟩
  | .hbm, ⟨34, _⟩ => ⟨S1650000, .i32⟩
  | .hbm, ⟨35, _⟩ => ⟨S1650000, .i32⟩
  | .hbm, ⟨36, _⟩ => ⟨S1650000, .i32⟩
  | .hbm, ⟨37, _⟩ => ⟨S1650000x1, .i32⟩
  | .hbm, ⟨38, _⟩ => ⟨S1650000, .f32⟩
  | .hbm, ⟨39, _⟩ => ⟨S1650000, .f32⟩
  | .hbm, ⟨40, _⟩ => ⟨S_, .i32⟩
  | .hbm, ⟨41, _⟩ => ⟨S1650000, .i32⟩
  | .hbm, ⟨42, _⟩ => ⟨S1650000, .i1⟩
  | .hbm, ⟨43, _⟩ => ⟨S_, .i32⟩
  | .hbm, ⟨44, _⟩ => ⟨S1650000, .i32⟩
  | .hbm, ⟨45, _⟩ => ⟨S1650000, .i32⟩
  | .hbm, ⟨46, _⟩ => ⟨S1650000, .i32⟩
  | .hbm, ⟨47, _⟩ => ⟨S1650000x1, .i32⟩
  | .hbm, ⟨48, _⟩ => ⟨S1650000, .f32⟩
  | .hbm, ⟨49, _⟩ => ⟨S1650000, .f32⟩
  | .hbm, ⟨50, _⟩ => ⟨S50000x1, .i32⟩
  | .hbm, ⟨51, _⟩ => ⟨S50000x128, .f32⟩
  | .hbm, ⟨52, _⟩ => ⟨S50000x128, .f32⟩
  | .hbm, ⟨53, _⟩ => ⟨S_, .i32⟩
  | .hbm, ⟨54, _⟩ => ⟨S1650000, .i32⟩
  | .hbm, ⟨55, _⟩ => ⟨S1650000, .i1⟩
  | .hbm, ⟨56, _⟩ => ⟨S_, .i32⟩
  | .hbm, ⟨57, _⟩ => ⟨S1650000, .i32⟩
  | .hbm, ⟨58, _⟩ => ⟨S1650000, .i32⟩
  | .hbm, ⟨59, _⟩ => ⟨S1650000, .i32⟩
  | .hbm, ⟨60, _⟩ => ⟨S1650000x1, .i32⟩
  | .hbm, ⟨61, _⟩ => ⟨S1650000x128, .f32⟩
  | .hbm, ⟨62, _⟩ => ⟨S1650000x1, .f32⟩
  | .hbm, ⟨63, _⟩ => ⟨S1650000x128, .f32⟩
  | .hbm, ⟨64, _⟩ => ⟨S1650000x128, .f32⟩
  | .hbm, ⟨65, _⟩ => ⟨S_, .f32⟩
  | .hbm, ⟨66, _⟩ => ⟨S50000x128, .f32⟩
  | .hbm, ⟨67, _⟩ => ⟨S1650000x1, .i32⟩
  | .hbm, ⟨68, _⟩ => ⟨S50000x128, .f32⟩
  | .hbm, ⟨69, _⟩ => ⟨S1x128, .f32⟩
  | .hbm, ⟨70, _⟩ => ⟨S50000x128, .f32⟩
  | .hbm, ⟨71, _⟩ => ⟨S50000x128, .f32⟩
  | .hbm, ⟨72, _⟩ => ⟨S_, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S_, .i32⟩
  | .hbm, ⟨77, _⟩ => ⟨S1650000, .i32⟩
  | .hbm, ⟨78, _⟩ => ⟨S1650000, .i1⟩
  | .hbm, ⟨79, _⟩ => ⟨S_, .i32⟩
  | .hbm, ⟨80, _⟩ => ⟨S1650000, .i32⟩
  | .hbm, ⟨81, _⟩ => ⟨S1650000, .i32⟩
  | .hbm, ⟨82, _⟩ => ⟨S1650000, .i32⟩
  | .hbm, ⟨83, _⟩ => ⟨S1650000x1, .i32⟩
  | .hbm, ⟨84, _⟩ => ⟨S1650000x128, .f32⟩
  | .hbm, ⟨85, _⟩ => ⟨S1650000x1, .f32⟩
  | .hbm, ⟨86, _⟩ => ⟨S1650000x128, .f32⟩
  | .hbm, ⟨87, _⟩ => ⟨S1650000x128, .f32⟩
  | .hbm, ⟨88, _⟩ => ⟨S_, .f32⟩
  | .hbm, ⟨89, _⟩ => ⟨S50000x128, .f32⟩
  | .hbm, ⟨90, _⟩ => ⟨S1650000x1, .i32⟩
  | .hbm, ⟨91, _⟩ => ⟨S50000x128, .f32⟩
  | .hbm, ⟨92, _⟩ => ⟨S1x128, .f32⟩
  | .hbm, ⟨93, _⟩ => ⟨S50000x128, .f32⟩
  | .hbm, ⟨94, _⟩ => ⟨S50000x128, .f32⟩
  | .local _ .vmem, ⟨0, _⟩ => ⟨S2000x1, .i32⟩
  | .local _ .vmem, ⟨1, _⟩ => ⟨S2000x1, .i32⟩
  | .local _ .vmem, ⟨2, _⟩ => ⟨S1000x128, .f32⟩
  | .local _ .vmem, ⟨3, _⟩ => ⟨S2000x128, .f32⟩
  | .local _ .vmem, ⟨4, _⟩ => ⟨S2000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_6 : Ref sig .tc := ⟨.hbm, 53, rfl⟩
abbrev main_v35 : Ref sig .tc := ⟨.hbm, 54, rfl⟩
abbrev main_v36 : Ref sig .tc := ⟨.hbm, 55, rfl⟩
abbrev main_c_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_call1_cst : Ref sig .tc := ⟨.hbm, 72, rfl⟩
abbrev main_call1_v0 : Ref sig .tc := ⟨.hbm, 73, rfl⟩
abbrev main_v51 : Ref sig .tc := ⟨.hbm, 74, rfl⟩
abbrev main_v52 : Ref sig .tc := ⟨.hbm, 75, rfl⟩
abbrev main_c_9 : Ref sig .tc := ⟨.hbm, 76, rfl⟩
abbrev main_v53 : Ref sig .tc := ⟨.hbm, 77, rfl⟩
abbrev main_v54 : Ref sig .tc := ⟨.hbm, 78, rfl⟩
abbrev main_c_10 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_11 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S50000 : S_.BroadcastsInDim S50000 (![] : Fin 0 → Fin S50000.rank)
  bcast_S1650000_S1650000x1_0 : S1650000.BroadcastsInDim S1650000x1 (![0] : Fin 1 → Fin S1650000x1.rank)
  bcast_S_S1650000 : S_.BroadcastsInDim S1650000 (![] : Fin 0 → Fin S1650000.rank)
  shapeCasts_S50000_S50000x1 : S50000.ShapeCasts S50000x1
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x1000_d1_w32 : S2000x1000.Iotas .tc 32 [1]
  broadcasts_S2000x1_S2000x1000 : S2000x1.Broadcasts S2000x1000
  natLt_1_32 : 1 < 32
  bitsLt_bf16_f32 : FTy.bits .bf16 < FTy.bits .f32
  inb_S1000x128_S1000x128_0_0 : ∀ a, (![0, 0] : Fin 2 → Nat) a + S1000x128.size a ≤ S1000x128.size a
  h_S1000x128 : 0 < S1000x128.numel
  inb_S2000x128_S2000x128_0_0 : ∀ a, (![0, 0] : Fin 2 → Nat) a + S2000x128.size a ≤ S2000x128.size a
  h_S2000x128 : 0 < S2000x128.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S2000x1000_S1000x128_S2000x128_1_0_0_1_n_n_wf : DotDims.WF S2000x1000 S1000x128 S2000x128 [1] [0] [0] [1] [] []
  dot_S5000x128_S128x128_S5000x128_1_0_0_1_n_n_wf : DotDims.WF S5000x128 S128x128 S5000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1.size a ≤ S50000x1.size a
  hwx0_0 : ∀ i : grid0.Coords, EltTy.bits .i32 = 32 ∨ (Rect.block (s := S50000x1) S2000x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S1000x128.size a
  hwx0_1 : ∀ i : grid0.Coords, EltTy.bits .f32 = 32 ∨ (Rect.block (s := S1000x128) S1000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S2000x1000_S1000x128_S2000x128_1_0_0_1_n_n : DotDims S2000x1000 S1000x128 S2000x128 where
  lhsContracting := [1]
  rhsContracting := [0]
  lhsNonContracting := [0]
  rhsNonContracting := [1]
  lhsBatch := []
  rhsBatch := []
  wf := dot_S2000x1000_S1000x128_S2000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf

abbrev win0_0 : Pipeline.Window sig grid0 :=
  Pipeline.Window.ofSpec (Memref.whole main_v32) S2000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v33) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v34) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v51) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v52) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000 : Shape := ⟨1, ![50000]⟩
abbrev S2x1600000 : Shape := ⟨2, ![2, 1600000]⟩
abbrev S1600000 : Shape := ⟨1, ![1600000]⟩
abbrev S1000x128 : Shape := ⟨2, ![1000, 128]⟩
abbrev S128x128 : Shape := ⟨2, ![128, 128]⟩
abbrev S128 : Shape := ⟨1, ![128]⟩
abbrev S1x1600000 : Shape := ⟨2, ![1, 1600000]⟩
abbrev S1650000 : Shape := ⟨1, ![1650000]⟩
abbrev S_ : Shape := ⟨0, ![]⟩
abbrev S50000x1 : Shape := ⟨2, ![50000, 1]⟩
abbrev S50000x128 : Shape := ⟨2, ![50000, 128]⟩
abbrev S1650000x1 : Shape := ⟨2, ![1650000, 1]⟩
abbrev S1650000x128 : Shape := ⟨2, ![1650000, 128]⟩
abbrev S1x128 : Shape := ⟨2, ![1, 128]⟩

abbrev nBuf : Space → Nat
  | .hbm => 134
  | .vmem => 0
  | .smem => 0
  | _ => 0

abbrev hbmTy0_0 (i : Nat) : BufTy := match i % 128 with
  | 0 => ⟨S50000, .i32⟩
  | 1 => ⟨S2x1600000, .i32⟩
  | 2 => ⟨S1600000, .f32⟩
  | 3 => ⟨S1000x128, .f32⟩
  | 4 => ⟨S128x128, .f32⟩
  | 5 => ⟨S128, .f32⟩
  | 6 => ⟨S128x128, .f32⟩
  | 7 => ⟨S128, .f32⟩
  | 8 => ⟨S50000, .i32⟩
  | 9 => ⟨S1x1600000, .i32⟩
  | 10 => ⟨S1600000, .i32⟩
  | 11 => ⟨S1650000, .i32⟩
  | 12 => ⟨S1x1600000, .i32⟩
  | 13 => ⟨S1600000, .i32⟩
  | 14 => ⟨S1650000, .i32⟩
  | 15 => ⟨S_, .f32⟩
  | 16 => ⟨S50000, .f32⟩
  | 17 => ⟨S1650000, .f32⟩
  | 18 => ⟨S_, .i32⟩
  | 19 => ⟨S50000, .i32⟩
  | 20 => ⟨S50000, .i1⟩
  | 21 => ⟨S_, .i32⟩
  | 22 => ⟨S50000, .i32⟩
  | 23 => ⟨S50000, .i32⟩
  | 24 => ⟨S50000, .i32⟩
  | 25 => ⟨S50000x1, .i32⟩
  | 26 => ⟨S50000x128, .f32⟩
  | 27 => ⟨S50000x128, .f32⟩
  | 28 => ⟨S_, .f32⟩
  | 29 => ⟨S50000, .f32⟩
  | 30 => ⟨S1650000x1, .i32⟩
  | 31 => ⟨S50000, .f32⟩
  | 32 => ⟨S_, .f32⟩
  | 33 => ⟨S50000, .f32⟩
  | 34 => ⟨S50000, .i1⟩
  | 35 => ⟨S50000, .f32⟩
  | 36 => ⟨S_, .f32⟩
  | 37 => ⟨S_, .f32⟩
  | 38 => ⟨S50000, .f32⟩
  | 39 => ⟨S50000, .f32⟩
  | 40 => ⟨S_, .i32⟩
  | 41 => ⟨S1650000, .i32⟩
  | 42 => ⟨S1650000, .i1⟩
  | 43 => ⟨S_, .i32⟩
  | 44 => ⟨S1650000, .i32⟩
  | 45 => ⟨S1650000, .i32⟩
  | 46 => ⟨S1650000, .i32⟩
  | 47 => ⟨S1650000x1, .i32⟩
  | 48 => ⟨S1650000, .f32⟩
  | 49 => ⟨S1650000, .f32⟩
  | 50 => ⟨S_, .i32⟩
  | 51 => ⟨S1650000, .i32⟩
  | 52 => ⟨S1650000, .i1⟩
  | 53 => ⟨S_, .i32⟩
  | 54 => ⟨S1650000, .i32⟩
  | 55 => ⟨S1650000, .i32⟩
  | 56 => ⟨S1650000, .i32⟩
  | 57 => ⟨S1650000x1, .i32⟩
  | 58 => ⟨S1650000, .f32⟩
  | 59 => ⟨S1650000, .f32⟩
  | 60 => ⟨S_, .i32⟩
  | 61 => ⟨S1650000, .i32⟩
  | 62 => ⟨S1650000, .i1⟩
  | 63 => ⟨S_, .i32⟩
  | 64 => ⟨S1650000, .i32⟩
  | 65 => ⟨S1650000, .i32⟩
  | 66 => ⟨S1650000, .i32⟩
  | 67 => ⟨S1650000x1, .i32⟩
  | 68 => ⟨S1650000x128, .f32⟩
  | 69 => ⟨S1650000x1, .f32⟩
  | 70 => ⟨S1650000x128, .f32⟩
  | 71 => ⟨S1650000x128, .f32⟩
  | 72 => ⟨S_, .f32⟩
  | 73 => ⟨S50000x128, .f32⟩
  | 74 => ⟨S1650000x1, .i32⟩
  | 75 => ⟨S50000x128, .f32⟩
  | 76 => ⟨S1x128, .f32⟩
  | 77 => ⟨S50000x128, .f32⟩
  | 78 => ⟨S50000x128, .f32⟩
  | 79 => ⟨S_, .f32⟩
  | 80 => ⟨S50000x128, .f32⟩
  | 81 => ⟨S50000x128, .f32⟩
  | 82 => ⟨S50000x128, .f32⟩
  | 83 => ⟨S_, .f32⟩
  | 84 => ⟨S50000, .f32⟩
  | 85 => ⟨S1650000x1, .i32⟩
  | 86 => ⟨S50000, .f32⟩
  | 87 => ⟨S_, .f32⟩
  | 88 => ⟨S50000, .f32⟩
  | 89 => ⟨S50000, .i1⟩
  | 90 => ⟨S50000, .f32⟩
  | 91 => ⟨S_, .f32⟩
  | 92 => ⟨S_, .f32⟩
  | 93 => ⟨S50000, .f32⟩
  | 94 => ⟨S50000, .f32⟩
  | 95 => ⟨S_, .i32⟩
  | 96 => ⟨S1650000, .i32⟩
  | 97 => ⟨S1650000, .i1⟩
  | 98 => ⟨S_, .i32⟩
  | 99 => ⟨S1650000, .i32⟩
  | 100 => ⟨S1650000, .i32⟩
  | 101 => ⟨S1650000, .i32⟩
  | 102 => ⟨S1650000x1, .i32⟩
  | 103 => ⟨S1650000, .f32⟩
  | 104 => ⟨S1650000, .f32⟩
  | 105 => ⟨S_, .i32⟩
  | 106 => ⟨S1650000, .i32⟩
  | 107 => ⟨S1650000, .i1⟩
  | 108 => ⟨S_, .i32⟩
  | 109 => ⟨S1650000, .i32⟩
  | 110 => ⟨S1650000, .i32⟩
  | 111 => ⟨S1650000, .i32⟩
  | 112 => ⟨S1650000x1, .i32⟩
  | 113 => ⟨S1650000, .f32⟩
  | 114 => ⟨S1650000, .f32⟩
  | 115 => ⟨S_, .i32⟩
  | 116 => ⟨S1650000, .i32⟩
  | 117 => ⟨S1650000, .i1⟩
  | 118 => ⟨S_, .i32⟩
  | 119 => ⟨S1650000, .i32⟩
  | 120 => ⟨S1650000, .i32⟩
  | 121 => ⟨S1650000, .i32⟩
  | 122 => ⟨S1650000x1, .i32⟩
  | 123 => ⟨S1650000x128, .f32⟩
  | 124 => ⟨S1650000x1, .f32⟩
  | 125 => ⟨S1650000x128, .f32⟩
  | 126 => ⟨S1650000x128, .f32⟩
  | 127 => ⟨S_, .f32⟩
  | _ => ⟨S50000, .i32⟩

abbrev hbmTy0_1 (i : Nat) : BufTy := match i % 128 with
  | 0 => ⟨S50000x128, .f32⟩
  | 1 => ⟨S1650000x1, .i32⟩
  | 2 => ⟨S50000x128, .f32⟩
  | 3 => ⟨S1x128, .f32⟩
  | 4 => ⟨S50000x128, .f32⟩
  | 5 => ⟨S50000x128, .f32⟩
  | _ => ⟨S50000, .i32⟩

abbrev hbmTy (i : Nat) : BufTy := match i / 128 with
  | 0 => hbmTy0_0 i
  | 1 => hbmTy0_1 i
  | _ => ⟨S50000, .i32⟩

abbrev bufTy : (tb : Table) → Fin (tcTables nBuf tb) → BufTy
  | .hbm, ⟨i, _⟩ => hbmTy i
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_v9 : Ref sig .tc := ⟨.hbm, 19, rfl⟩
abbrev main_v10 : Ref sig .tc := ⟨.hbm, 20, rfl⟩
abbrev main_c_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_c_8 : Ref sig .tc := ⟨.hbm, 60, rfl⟩
abbrev main_v40 : Ref sig .tc := ⟨.hbm, 61, rfl⟩
abbrev main_v41 : Ref sig .tc := ⟨.hbm, 62, rfl⟩
abbrev main_c_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_call1_cst : Ref sig .tc := ⟨.hbm, 79, rfl⟩
abbrev main_call1_v0 : Ref sig .tc := ⟨.hbm, 80, rfl⟩
abbrev main_v56 : Ref sig .tc := ⟨.hbm, 81, rfl⟩
abbrev main_v57 : Ref sig .tc := ⟨.hbm, 82, rfl⟩
abbrev main_cst_11 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_13 : Ref sig .tc := ⟨.hbm, 91, rfl⟩
abbrev main_call2_v0 : Ref sig .tc := ⟨.hbm, 92, rfl⟩
abbrev main_call2_v1 : Ref sig .tc := ⟨.hbm, 93, rfl⟩
abbrev main_v64 : Ref sig .tc := ⟨.hbm, 94, rfl⟩
abbrev main_c_14 : Ref sig .tc := ⟨.hbm, 95, rfl⟩
abbrev main_v65 : Ref sig .tc := ⟨.hbm, 96, rfl⟩
abbrev main_v66 : Ref sig .tc := ⟨.hbm, 97, rfl⟩
abbrev main_c_15 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_c_16 : Ref sig .tc := ⟨.hbm, 105, rfl⟩
abbrev main_v73 : Ref sig .tc := ⟨.hbm, 106, rfl⟩
abbrev main_v74 : Ref sig .tc := ⟨.hbm, 107, rfl⟩
abbrev main_c_17 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_c_18 : Ref sig .tc := ⟨.hbm, 115, rfl⟩
abbrev main_v81 : Ref sig .tc := ⟨.hbm, 116, rfl⟩
abbrev main_v82 : Ref sig .tc := ⟨.hbm, 117, rfl⟩
abbrev main_c_19 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_cst_20 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S50000 : S_.BroadcastsInDim S50000 (![] : Fin 0 → Fin S50000.rank)
  bcast_S50000_S50000x1_0 : S50000.BroadcastsInDim S50000x1 (![0] : Fin 1 → Fin S50000x1.rank)
  bcast_S1650000_S1650000x1_0 : S1650000.BroadcastsInDim S1650000x1 (![0] : Fin 1 → Fin S1650000x1.rank)
  bcast_S_S1650000 : S_.BroadcastsInDim S1650000 (![] : Fin 0 → Fin S1650000.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S1000x128_S50000x1_S50000x128_1_0_n_n_0_1_1128_wf : GatherDims.WF S1000x128 S50000x1 S50000x128 [1] [0] [] [0] [] 1 ![1, 128]
  dot_S50000x128_S128x128_S50000x128_1_0_0_1_n_n_wf : DotDims.WF S50000x128 S128x128 S50000x128 [1] [0] [0] [1] [] []
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1

variable [Facts₀]

def gather_S1000x128_S50000x1_S50000x128_1_0_n_n_0_1_1128 : GatherDims S1000x128 S50000x1 S50000x128 where
  offsetDims := [1]
  collapsedSliceDims := [0]
  operandBatchingDims := []
  startIndicesBatchingDims := []
  startIndexMap := [0]
  indexVectorDim := 1
  sliceSizes := ![1, 128]
  wf := gather_S1000x128_S50000x1_S50000x128_1_0_n_n_0_1_1128_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf

class Facts : Prop extends Facts₀ where

variable [Facts]
-- ==== Proof.RefRun.lean ====
/-
  The reference program's run, read back as a pure term of its arguments: this module only brings that
  run into scope for the modules that compare the two programs' results.
-/
import proofs.«430550_j8693013807597_1_alg».proof.Proof.Gen.ReferenceIdeal.Run
-- ==== Proof.Gcn.lean ====
/-
  The graph-convolution encoder both programs compute, as pure functions of the argument arrays.

  With N = 50000 nodes, E = 1600000 edges and a self loop appended per node (E + N = 1650000 entries):
  `src`, `dst` are the two rows of the edge list followed by 0 … N-1, `ew` the edge weights followed by ones;
  `deg d = Σ_{e : dst e = d} ew e` (a scatter-add), `dinv = deg^(-1/2)` where `deg > 0` and `0` elsewhere,
  `norm e = dinv (src e) · ew e · dinv (dst e)` (each index wrapped once by N when negative, then clamped by the gather);
  one layer maps a node-feature matrix `xw` and a bias `b` to
  `(Σ_{e : dst e = d} xw (src e, j) · norm e) + b j`;
  the encoder is `layer (relu (layer (x · W1) b1) · W2) b2` with `x` the embedding rows picked by the labels.
  Every function below is written with the operations, shapes and side conditions of the reference program's
  printed text, so that the reference's result term unfolds to `net` literally; the kernel program's host
  stretches are the same operations and meet the same functions.
-/
import proofs.«430550_j8693013807597_1_alg».proof.ReferenceIdeal

noncomputable section

namespace Cert.Gcn

open Idealize.ShloMosaic Cert.ReferenceIdeal
open Cert.ReferenceIdeal.Facts₀ Cert.ReferenceIdeal.Facts

variable {F : FTy → Type} [FloatOps F] [Cert.ReferenceIdeal.Facts]

/-- Source node of each of the E + N entries: row 0 of the edge list, then the self loops 0 … N-1. -/
def src (ei : IVec S2x1600000 32) : IVec S1650000 32 :=
  concatenate S1650000 0 [⟨S1600000, (shapeCast _ (extractStridedSlice S1x1600000 ![0, 0] ei slices_S2x1600000_S1x1600000_0_0) shapeCasts_S1x1600000_S1600000)⟩, ⟨S50000, (iotaInDim S50000 32 0)⟩] concatenates_S1600000_S50000_S1650000_d0

/-- Destination node of each entry: row 1 of the edge list, then the self loops. -/
def dst (ei : IVec S2x1600000 32) : IVec S1650000 32 :=
  concatenate S1650000 0 [⟨S1600000, (shapeCast _ (extractStridedSlice S1x1600000 ![1, 0] ei slices_S2x1600000_S1x1600000_1_0) shapeCasts_S1x1600000_S1600000)⟩, ⟨S50000, (iotaInDim S50000 32 0)⟩] concatenates_S1600000_S50000_S1650000_d0

/-- Weight of each entry: the edge weights, then 1 for every self loop. -/
def ew (w : FVec F S1600000 .f32) : FVec F S1650000 .f32 :=
  concatenate S1650000 0 [⟨S1600000, w⟩, ⟨S50000, (broadcastInDim S50000 ![] bcast_S_S50000 (constant S_ .f32 0x3F800000#32))⟩] concatenates_S1600000_S50000_S1650000_d0

/-- A node index as the gathers take it: N added once when it is negative, as a column of index words. -/
def sel (v : IVec S1650000 32) : IVec S1650000x1 32 :=
  broadcastInDim S1650000x1 ![0] bcast_S1650000_S1650000x1_0 (select (cmpi .slt v (broadcastInDim S1650000 ![] bcast_S_S1650000 (constantI S_ 32 0#32))) (addi v (broadcastInDim S1650000 ![] bcast_S_S1650000 (constantI S_ 32 50000#32))) v)

/-- Weighted in-degree: the entries' weights summed at their destinations. -/
def deg (ei : IVec S2x1600000 32) (w : FVec F S1600000 .f32) : FVec F S50000 .f32 :=
  Host.scatterAdd scatter_S50000_S1650000x1_S1650000_n_0_0_1 (broadcastInDim S50000 ![] bcast_S_S50000 (constant S_ .f32 0x00000000#32)) (broadcastInDim S1650000x1 ![0] bcast_S1650000_S1650000x1_0 (dst ei)) (ew w)

/-- `deg^(-1/2)` where the degree is positive, `0` elsewhere. -/
def dinv (ei : IVec S2x1600000 32) (w : FVec F S1600000 .f32) : FVec F S50000 .f32 :=
  select (cmpf .ogt (deg ei w) (broadcastInDim S50000 ![] bcast_S_S50000 (constant S_ .f32 0x00000000#32))) (Host.rsqrt (deg ei w)) (broadcastInDim S50000 ![] bcast_S_S50000 (id (constant S_ .f32 0x00000000#32)))

/-- The symmetric normalisation of each entry: `dinv (src e) · ew e · dinv (dst e)`. -/
def norm (ei : IVec S2x1600000 32) (w : FVec F S1600000 .f32) : FVec F S1650000 .f32 :=
  mulf (mulf (Host.gather gather_S50000_S1650000x1_S1650000_n_0_n_n_0_1_1 (dinv ei w) (sel (src ei))) (ew w)) (Host.gather gather_S50000_S1650000x1_S1650000_n_0_n_n_0_1_1 (dinv ei w) (sel (dst ei)))

/-- One aggregation: the rows of `xw` gathered at the sources, scaled by `norm`, summed at the destinations, plus the bias. -/
def layer (ei : IVec S2x1600000 32) (w : FVec F S1600000 .f32) (xw : FVec F S50000x128 .f32) (b : FVec F S128 .f32) : FVec F S50000x128 .f32 :=
  addf (Host.scatterAdd scatter_S50000x128_S1650000x1_S1650000x128_1_0_0_1 (broadcastInDim S50000x128 ![] bcast_S_S50000x128 (constant S_ .f32 0x00000000#32)) (broadcastInDim S1650000x1 ![0] bcast_S1650000_S1650000x1_0 (dst ei)) (mulf (Host.gather gather_S50000x128_S1650000x1_S1650000x128_1_0_n_n_0_1_1128 xw (sel (src ei))) (broadcastInDim S1650000x128 ![0, 1] bcast_S1650000x1_S1650000x128_0_1 (broadcastInDim S1650000x1 ![0] bcast_S1650000_S1650000x1_0 (norm ei w))))) (broadcastInDim S50000x128 ![0, 1] bcast_S1x128_S50000x128_0_1 (broadcastInDim S1x128 ![1] bcast_S128_S1x128_1 b))

/-- The embedding rows picked by the labels (a label wrapped once by the table's height when negative, then clamped by the gather). -/
def look (emb : FVec F S1000x128 .f32) (lab : IVec S50000 32) : FVec F S50000x128 .f32 :=
  Host.gather gather_S1000x128_S50000x1_S50000x128_1_0_n_n_0_1_1128 emb (broadcastInDim S50000x1 ![0] bcast_S50000_S50000x1_0 (select (cmpi .slt lab (broadcastInDim S50000 ![] bcast_S_S50000 (constantI S_ 32 0#32))) (addi lab (broadcastInDim S50000 ![] bcast_S_S50000 (constantI S_ 32 1000#32))) lab))

/-- The node features times a square weight matrix. -/
def dot (x : FVec F S50000x128 .f32) (w : FVec F S128x128 .f32) : FVec F S50000x128 .f32 :=
  Host.dotGeneral dot_S50000x128_S128x128_S50000x128_1_0_0_1_n_n none x w

/-- `max x 0`, entry by entry. -/
def relu (x : FVec F S50000x128 .f32) : FVec F S50000x128 .f32 :=
  maximumf x (broadcastInDim S50000x128 ![] bcast_S_S50000x128 (constant S_ .f32 0x00000000#32))

/-- The encoder: two layers over the looked-up embeddings, a relu between them. -/
def net (lab : IVec S50000 32) (ei : IVec S2x1600000 32) (w : FVec F S1600000 .f32) (emb : FVec F S1000x128 .f32)
    (W1 : FVec F S128x128 .f32) (b1 : FVec F S128 .f32) (W2 : FVec F S128x128 .f32) (b2 : FVec F S128 .f32) : FVec F S50000x128 .f32 :=
  layer ei w (dot (relu (layer ei w (dot (look emb lab) W1) b1)) W2) b2

end Cert.Gcn

end
-- ==== Proof.RefValue.lean ====
/-
  The reference program's result, as the run reads it back, IS the encoder `Cert.Gcn.net` of the argument arrays:
  the run's term is the reference's operations composed, and `net` and the functions under it were written as
  exactly those operations, so the two agree by unfolding the definitions.
-/
import proofs.«430550_j8693013807597_1_alg».proof.Proof.RefRun
import proofs.«430550_j8693013807597_1_alg».proof.Proof.Gcn

set_option maxRecDepth 16384

noncomputable section

namespace Cert.ReferenceIdeal.RefValue

open Idealize.ShloMosaic Idealize.ShloMosaic.TcCoe Idealize.SL.Sem Cert.ReferenceIdeal Cert.ReferenceIdeal.Gen

variable {F : FTy → Type} [FloatOps F]

/-- The reference's result buffer after its run: two aggregation layers over the looked-up embeddings. -/
theorem res_eq (m : (ℓ : Loc nD τ sig) → Buf (Elt F) ℓ) (c : Dev nD) :
    Cert.ReferenceIdeal.Value.res_main_v96 (F := F) m c
      = Cert.Gcn.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold Cert.ReferenceIdeal.Value.res_main_v96 Cert.Gcn.net Cert.Gcn.layer Cert.Gcn.norm Cert.Gcn.dinv Cert.Gcn.deg
    Cert.Gcn.sel Cert.Gcn.src Cert.Gcn.dst Cert.Gcn.ew Cert.Gcn.look Cert.Gcn.dot Cert.Gcn.relu
  rfl

end Cert.ReferenceIdeal.RefValue

end
-- ==== Proof.PreRange.lean ====
/-
  The precondition, decoded at the labels: its last conjunct is the conjunction over all 50000 entries of
  `0 ≤ label` and `label < 1000` (signed compares of the 32-bit words), so when the precondition holds every label,
  read as a signed integer, lies in 0 … 999.
-/
import proofs.«430550_j8693013807597_1_alg».proof.Pre_finite_inputs
import Idealize.ShloMosaic.Lib.ReduceAll
import Idealize.ShloMosaic.Lib.ValueIdx
import Idealize.ShloMosaic.Lib.Affine

noncomputable section

namespace Cert.PreRange

open Idealize.ShloMosaic Cert.Pre_finite_inputs
open Cert.Pre_finite_inputs.Facts

variable [Cert.Pre_finite_inputs.Facts]

/-- The rank-0 shape has one index. -/
instance : Subsingleton S_.Idx := ⟨fun a b => funext fun d => d.elim0⟩

/-- A word that passes the two signed compares is, read signed, in 0 … 999. -/
theorem word_range (w : BitVec 32) (h0 : IntOp.cmpi .sge w (0#32) = 1#1) (h1 : IntOp.cmpi .slt w (1000#32) = 1#1) :
    0 ≤ w.toInt ∧ w.toInt < 1000 := by
  unfold IntOp.cmpi at h0 h1
  have b0 : ∀ b : Bool, BitVec.ofBool b = 1#1 → b = true := by decide
  have e0 := b0 _ h0
  have e1 := b0 _ h1
  simp only [BitVec.slt, BitVec.sle, decide_eq_true_eq] at e0 e1
  have z : (0#32 : BitVec 32).toInt = 0 := by decide
  have k : (1000#32 : BitVec 32).toInt = 1000 := by decide
  omega

/-- THE PRECONDITION AT THE LABELS: every label in range. -/
theorem labels_range {F : FTy → Type} [FloatOps F] (a0 : IVec S50000 32) (a1 : IVec S2x1600000 32) (a2 : FVec F S1600000 .f32)
    (a3 : FVec F S1000x128 .f32) (a4 : FVec F S128x128 .f32) (a5 : FVec F S128 .f32) (a6 : FVec F S128x128 .f32) (a7 : FVec F S128 .f32)
    (h : fn (F := F) a0 a1 a2 a3 a4 a5 a6 a7 = fun _ => 1#1) (i : S50000.Idx) : 0 ≤ (a0 i).toInt ∧ (a0 i).toInt < 1000 := by
  have e := congrFun h ValueIdx.ix0
  dsimp only [fn, fn_part1, fn_part2] at e
  have e2 := (IntOp.andi_eq_one.mp e).2
  have e3 := Host.reduce_andi_all _ _ _ _ _ e2 i
  have e4 := IntOp.andi_eq_one.mp e3
  exact word_range (a0 i) e4.1 e4.2

end Cert.PreRange

end
-- ==== Proof.LibPlainDot.lean ====
/-
  A matrix product contracted over ONE axis, read at an index.

  For an `A × K` left operand and a `K × B` right operand whose dimension numbers contract the left operand's
  second axis against the right operand's first (no batch axes), the contraction index has one coordinate
  `k : Fin K`, the left operand is read at `(p, k)` and the right one at `(k, q)`. So the sum over the contraction
  index that the product's value is stated with is the textbook `∑ k, f (p, k) · g (k, q)`, whatever the sizes.
  `eq_plain` identifies any record with these dimension numbers with the library's `DotDims.plain`, for which the
  two operand indices compute.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx
open scoped BigOperators

variable {A K B : Nat}

/-- Dimension numbers `[1] × [0]`, free axes `[0]` and `[1]`, no batch: the record is `DotDims.plain`. -/
theorem eq_plain (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) : d = DotDims.plain A K B := by
  cases d
  simp only at hlc hrc hln hrn hlb hrb
  subst hlc hrc hln hrn hlb hrb
  rfl

/-- The contraction shape has one axis … -/
theorem plain_rank : (DotDims.plain A K B).contr.rank = 1 := rfl
/-- … of extent `K`. -/
theorem plain_size : (DotDims.plain A K B).contr.size ⟨0, by rw [plain_rank]; exact Nat.one_pos⟩ = K := rfl

/-- At result index `(p, q)` and contraction coordinate `k` the left operand is read at `(p, k)`. -/
theorem plain_lhs (p : Fin A) (q : Fin B) (k : Fin K) :
    (DotDims.plain A K B).lhsIdx (ix2 p q) ((contrEquiv1 (DotDims.plain A K B) K plain_rank plain_size).symm k) = ix2 p k := by
  funext a
  apply Fin.ext
  match a with
  | ⟨0, _⟩ => rfl
  | ⟨1, _⟩ => rfl

/-- At result index `(p, q)` and contraction coordinate `k` the right operand is read at `(k, q)`. -/
theorem plain_rhs (p : Fin A) (q : Fin B) (k : Fin K) :
    (DotDims.plain A K B).rhsIdx (ix2 p q) ((contrEquiv1 (DotDims.plain A K B) K plain_rank plain_size).symm k) = ix2 k q := by
  funext a
  apply Fin.ext
  match a with
  | ⟨0, _⟩ => rfl
  | ⟨1, _⟩ => rfl

/-- The sum over the contraction index is the sum over `k : Fin K` of `f (p, k) · g (k, q)`. -/
theorem plain_sum (f : (⟨2, ![A, K]⟩ : Shape).Idx → EReal) (g : (⟨2, ![K, B]⟩ : Shape).Idx → EReal) (p : Fin A) (q : Fin B) :
    ∑ k : (DotDims.plain A K B).contr.Idx, f ((DotDims.plain A K B).lhsIdx (ix2 p q) k) * g ((DotDims.plain A K B).rhsIdx (ix2 p q) k)
      = ∑ k : Fin K, f (ix2 p k) * g (ix2 k q) := by
  rw [← Equiv.sum_comp (contrEquiv1 (DotDims.plain A K B) K plain_rank plain_size).symm]
  refine Finset.sum_congr rfl fun k _ => ?_
  rw [plain_lhs, plain_rhs]

/-- A block product into the zero accumulator, at `(p, q)`: `∑ k, lhs (p, k) · rhs (k, q)`. -/
theorem matmul_zero_apply (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ .f32) (rhs : FVec Ideal ⟨2, ![K, B]⟩ .f32)
    (p : Fin A) (q : Fin B) :
    FloatOps.matmul d prec lhs rhs (constant ⟨2, ![A, B]⟩ .f32 0x00000000#32) (ix2 p q) = ∑ k : Fin K, lhs (ix2 p k) * rhs (ix2 k q) := by
  rw [eq_plain d hlc hrc hln hrn hlb hrb, Ideal.matmul_constant_zero_apply]
  exact plain_sum lhs rhs p q

/-- The host's product at `(p, q)`, whatever its schedule key: the same sum. -/
theorem dotGeneral_apply (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![A, K]⟩ .f32) (rhs : FVec Ideal ⟨2, ![K, B]⟩ .f32)
    (p : Fin A) (q : Fin B) :
    FloatOps.dotGeneral d prec sched lhs rhs (ix2 p q) = ∑ k : Fin K, lhs (ix2 p k) * rhs (ix2 k q) := by
  rw [eq_plain d hlc hrc hln hrn hlb hrb, Ideal.dotGeneral_apply]
  exact plain_sum lhs rhs p q

end Cert.LibPlainDot

end
-- ==== Proof.LibColumn.lean ====
/-
  A column of row values read at an index.

  A row reduction that keeps its reduced axis produces an `[a]` array given a trailing unit axis, `[a, 1]`, and then
  spread along that axis to `[a, b]`: entry `(i, 0)` of the cast is the array's entry `i`, and entry `(i, j)` of the
  spread column is the column's entry `(i, 0)`, whatever the sizes and the element type.
-/
import Idealize.ShloMosaic.Lib.ValueIdx
import Idealize.ShloMosaic.Lib.Pipeline.Value

namespace Cert.LibColumn

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column spread to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibColumn
-- ==== Proof.LibScatterGather2.lean ====
/-
  The accumulating scatter and the gather of a table of rows by a column of index words, read at an index.

  Both operations here take an operand of `N` rows and `C` columns and an `M × 1` column of index words, one word per
  update (or result) row: row `e` names row `idx[e, 0]` of the operand, the word read as a SIGNED integer, and the
  columns go straight across.
    • The scatter adds update row `e` into the operand row its word names, column by column, and drops it when the
      word names no row; so element `(u, j)` ends as its old value plus the sum, over the update rows whose word read
      signed is `u`, of their column `j`.
    • The gather reads, at `(e, j)`, column `j` of the operand row `e`'s word names, the word clamped into
      `[0, N − 1]`; when the word is already below `N` (and `N` is at most half the word range, so that the signed
      reading is the unsigned one) that is the row at the word itself.
  Nothing here depends on the sizes: every step is about the two axes, never about the `N`, `M` or `C` positions.
-/
import Idealize.ShloMosaic.PureOps.Ideal
import Idealize.ShloMosaic.PureOps.ShapeOps
import Idealize.ShloMosaic.PureOps.Contract
import Idealize.ShloMosaic.Lib.ValueIdx

noncomputable section

namespace Cert.LibScatterGather2

open Idealize.ShloMosaic Idealize.ShloMosaic.ValueIdx

/-! ## The scatter -/

section Scatter

variable {N C M w : Nat}

/-- Where update index `jj` starts and how far into its window it sits, axis by axis: on the row axis the start is
    the index word of `jj`'s row, read signed, and the window coordinate is zero (the axis is inserted); on the column
    axis the start is zero (no word names it) and the window coordinate is `jj`'s column. -/
theorem start_window (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (idx : IVec ⟨2, ![M, 1]⟩ w) (jj : (⟨2, ![M, C]⟩ : Shape).Idx) :
    d.start jj idx 0 = (idx (ix2 (n0 := M) (n1 := 1) (jj 0) 0)).toInt ∧ d.start jj idx 1 = 0
      ∧ d.window jj 0 = 0 ∧ d.window jj 1 = (jj 1).val := by
  cases d with
  | mk uw iw sd iv wf =>
    obtain rfl : uw = [1] := huw
    obtain rfl : iw = [0] := hiw
    obtain rfl : sd = [0] := hsd
    obtain rfl : iv = 1 := hivd
    refine ⟨?_, ?_, ?_, ?_⟩
    · unfold ScatterDims.start
      rw [dif_pos (List.mem_singleton.mpr rfl)]
      refine congrArg (fun k => (idx k).toInt) ?_
      funext b
      match b with
      | ⟨0, _⟩ => exact Fin.ext rfl
      | ⟨1, _⟩ => exact Fin.ext rfl
    · unfold ScatterDims.start
      rw [dif_neg (by decide : (1 : Fin 2) ∉ [0])]
    · unfold ScatterDims.window
      exact dif_neg (by decide : (0 : Fin 2) ∉ (List.finRange 2).filter (· ∉ [0]))
    · unfold ScatterDims.window
      refine (dif_pos (by decide : (1 : Fin 2) ∈ (List.finRange 2).filter (· ∉ [0]))).trans ?_
      rfl

/-- Update index `jj` lands on element `i` exactly when its row's index word, read signed, is `i`'s row and its
    column is `i`'s column. -/
theorem resultIdx?_iff (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (idx : IVec ⟨2, ![M, 1]⟩ w) (jj : (⟨2, ![M, C]⟩ : Shape).Idx) (i : (⟨2, ![N, C]⟩ : Shape).Idx) :
    d.resultIdx? jj idx = some i
      ↔ (idx (ix2 (n0 := M) (n1 := 1) (jj 0) 0)).toInt = ((i 0).val : ℤ) ∧ (jj 1).val = (i 1).val := by
  obtain ⟨hs0, hs1, hw0, hw1⟩ := start_window d huw hiw hsd hivd idx jj
  have hi0 : (i 0).val < N := (i 0).isLt
  have hi1 : (i 1).val < C := (i 1).isLt
  have hj1 : (jj 1).val < C := (jj 1).isLt
  unfold ScatterDims.resultIdx?
  constructor
  · intro h
    split at h
    · rename_i hc
      have hf := Option.some.inj h
      have h0 : (d.start jj idx 0 + (d.window jj 0 : ℤ)).toNat = (i 0).val := congrArg (fun f => (f 0).val) hf
      have h1 : (d.start jj idx 1 + (d.window jj 1 : ℤ)).toNat = (i 1).val := congrArg (fun f => (f 1).val) hf
      have hc0 := (hc 0).1
      rw [hs0, hw0] at hc0 h0
      rw [hs1, hw1] at h1
      constructor
      · omega
      · omega
    · exact absurd h (by simp)
  · rintro ⟨h, h'⟩
    have hc : ∀ a : Fin 2, 0 ≤ d.start jj idx a + (d.window jj a : ℤ)
        ∧ d.start jj idx a + (d.window jj a : ℤ) < ((⟨2, ![N, C]⟩ : Shape).size a : ℤ) := by
      intro a
      match a with
      | ⟨0, _⟩ =>
        show 0 ≤ d.start jj idx 0 + (d.window jj 0 : ℤ) ∧ d.start jj idx 0 + (d.window jj 0 : ℤ) < (N : ℤ)
        rw [hs0, hw0, h]
        constructor <;> omega
      | ⟨1, _⟩ =>
        show 0 ≤ d.start jj idx 1 + (d.window jj 1 : ℤ) ∧ d.start jj idx 1 + (d.window jj 1 : ℤ) < (C : ℤ)
        rw [hs1, hw1]
        constructor <;> omega
    rw [dif_pos hc]
    refine congrArg some ?_
    funext a
    match a with
    | ⟨0, _⟩ =>
      apply Fin.ext
      show (d.start jj idx 0 + (d.window jj 0 : ℤ)).toNat = (i 0).val
      rw [hs0, hw0, h]; simp
    | ⟨1, _⟩ =>
      apply Fin.ext
      show (d.start jj idx 1 + (d.window jj 1 : ℤ)).toNat = (i 1).val
      rw [hs1, hw1]; simpa using h'

/-- The accumulating scatter at element `(u, j)`: the old value plus column `j` of the update rows whose word,
    read signed, is `u`. -/
theorem scatterAdd_apply {φ : FTy} (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (x : FVec Ideal ⟨2, ![N, C]⟩ φ) (idx : IVec ⟨2, ![M, 1]⟩ w) (upd : FVec Ideal ⟨2, ![M, C]⟩ φ)
    (u : Fin N) (j : Fin C) :
    Host.scatterAdd (F := Ideal) d x idx upd (ix2 u j)
      = x (ix2 u j) + ∑ e ∈ Finset.univ.filter (fun e : Fin M => (idx (ix2 e (0 : Fin 1))).toInt = (u.val : ℤ)),
          upd (ix2 e j) := by
  show Ideal.hostScatterAdd d x idx upd (ix2 u j) = _
  unfold Ideal.hostScatterAdd
  refine congrArg (x (ix2 u j) + ·) ?_
  symm
  refine Finset.sum_bij (fun e _ => ix2 e j) ?_ ?_ ?_ (fun _ _ => rfl)
  · intro e he
    rw [Finset.mem_filter] at he ⊢
    exact ⟨Finset.mem_univ _, (resultIdx?_iff d huw hiw hsd hivd idx (ix2 e j) (ix2 u j)).mpr ⟨he.2, rfl⟩⟩
  · intro e _ e' _ h
    exact congrFun h 0
  · intro jj hjj
    rw [Finset.mem_filter] at hjj
    obtain ⟨h, h'⟩ := (resultIdx?_iff d huw hiw hsd hivd idx jj (ix2 u j)).mp hjj.2
    refine ⟨jj 0, Finset.mem_filter.mpr ⟨Finset.mem_univ _, h⟩, ?_⟩
    rw [eq_ix2 jj]
    refine congrArg (ix2 (jj 0)) (Fin.ext ?_)
    exact h'.symm

end Scatter

/-! ## The gather -/

section Gather

variable {α : Type} {N C M w : Nat}

/-- The gather at `(e, j)`, whatever the word: column `j` of the row at the word read signed and clamped. -/
theorem gather_apply_clamp (d : GatherDims ⟨2, ![N, C]⟩ ⟨2, ![M, 1]⟩ ⟨2, ![M, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![M, 1]⟩ w) (e : Fin M) (j : Fin C) (hN : 0 < N) :
    Host.gather d x idx (ix2 e j)
      = x (ix2 ⟨min (idx (ix2 e (0 : Fin 1))).toInt.toNat (N - 1), by omega⟩ j) := by
  have hsl : d.sliceSizes 0 = 1 := d.slice_collapsed 0 (by rw [hcoll]; exact List.mem_singleton.mpr rfl)
  unfold Host.gather
  refine congrArg x ?_
  cases d with
  | mk od cd ob sb sm iv ss wf =>
    obtain rfl : od = [1] := hoff
    obtain rfl : cd = [0] := hcoll
    obtain rfl : ob = [] := hob
    obtain rfl : sm = [0] := hsim
    obtain rfl : iv = 1 := hivd
    replace hsl : ss 0 = 1 := hsl
    funext a
    match a with
    | ⟨0, _⟩ =>
      apply Fin.ext
      show GatherDims.start _ (ix2 e j) idx 0 + GatherDims.batchCoord _ (ix2 e j) 0 + GatherDims.offCoord _ (ix2 e j) 0
        = min (idx (ix2 e (0 : Fin 1))).toInt.toNat (N - 1)
      rw [GatherDims.batchCoord_eq_zero _ _ _ List.not_mem_nil,
        GatherDims.offCoord_eq_zero _ _ _ (by decide : (0 : Fin 2) ∉ (List.finRange 2).filter (· ∉ [0] ++ []))]
      simp only [Nat.add_zero]
      unfold GatherDims.start
      rw [dif_pos (List.mem_singleton.mpr rfl)]
      show min (idx _).toInt.toNat (N - ss 0) = _
      rw [hsl]
      refine congrArg (fun k => min (idx k).toInt.toNat (N - 1)) ?_
      funext b
      match b with
      | ⟨0, _⟩ => exact Fin.ext rfl
      | ⟨1, _⟩ => exact Fin.ext rfl
    | ⟨1, _⟩ =>
      apply Fin.ext
      show GatherDims.start _ (ix2 e j) idx 1 + GatherDims.batchCoord _ (ix2 e j) 1 + GatherDims.offCoord _ (ix2 e j) 1
        = j.val
      rw [GatherDims.batchCoord_eq_zero _ _ _ List.not_mem_nil]
      simp only [Nat.add_zero]
      unfold GatherDims.start
      rw [dif_neg (by decide : (1 : Fin 2) ∉ [0]), Nat.zero_add]
      unfold GatherDims.offCoord
      refine (dif_pos (by decide : (1 : Fin 2) ∈ (List.finRange 2).filter (· ∉ [0] ++ []))).trans ?_
      rfl

/-- The gather at `(e, j)` when the word is a row's position: column `j` of that row. -/
theorem gather_apply (d : GatherDims ⟨2, ![N, C]⟩ ⟨2, ![M, 1]⟩ ⟨2, ![M, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![M, 1]⟩ w) (e : Fin M) (j : Fin C)
    (hN : 2 * N ≤ 2 ^ w) (h : (idx (ix2 e (0 : Fin 1))).toNat < N) :
    Host.gather d x idx (ix2 e j) = x (ix2 ⟨(idx (ix2 e (0 : Fin 1))).toNat, h⟩ j) := by
  have hN0 : 0 < N := by omega
  rw [gather_apply_clamp d hoff hcoll hob hsim hivd x idx e j hN0]
  refine congrArg x (congrArg (fun r => ix2 r j) (Fin.ext ?_))
  show min (idx (ix2 e (0 : Fin 1))).toInt.toNat (N - 1) = (idx (ix2 e (0 : Fin 1))).toNat
  rw [BitVec.toInt_eq_toNat_of_lt (by omega), Int.toNat_natCast]
  omega

end Gather

end Cert.LibScatterGather2

end
-- ==== Proof.Region0.lean ====
/-
  The first kernel region (the embedding lookup as a one-hot product), read as a value.
  Each grid point t takes rows 2000·t … 2000·t + 1999 of the label column and the whole 1000 × 128 table, and
  writes back the block whose entry (r, j) is  Σ_k [label (2000·t + r) = k] · table (k, j).
  When every label lies in 0 … 999 exactly one term survives, the table's row at the label: what the
  reference's gather reads (the wrap of a negative label does not fire, the clamp does not bind).
-/
import proofs.«430550_j8693013807597_1_alg».proof.Proof.Gen.KernelIdeal.Frame
import proofs.«430550_j8693013807597_1_alg».proof.Proof.Gcn
import proofs.«430550_j8693013807597_1_alg».proof.Proof.LibPlainDot
import proofs.«430550_j8693013807597_1_alg».proof.Proof.LibColumn
import proofs.«430550_j8693013807597_1_alg».proof.Proof.LibScatterGather2
import Idealize.ShloMosaic.Lib.ValueIdx
import Idealize.ShloMosaic.Lib.ValueLayout
import Idealize.ShloMosaic.Lib.Pipeline.Value

set_option maxRecDepth 16384

noncomputable section

namespace Cert.KernelIdeal.Region0

open Idealize.ShloMosaic Idealize.ShloMosaic.TcCoe Idealize.SL.Sem Cert.KernelIdeal Cert.KernelIdeal.Gen
open Idealize.ShloMosaic.ValueIdx
open scoped BigOperators

/-! ## Words and the one-hot factor -/

/-- A word in 0 … 999 equals the word of `k < 1000` exactly when its value is `k`. -/
theorem word_eq_iff (a : BitVec 32) (k : Fin 1000) (ha : a.toNat < 1000) :
    a = BitVec.ofNat 32 k.val ↔ a.toNat = k.val := by
  have hk := k.isLt
  constructor
  · intro h; rw [h, BitVec.toNat_ofNat]; omega
  · intro h; apply BitVec.eq_of_toNat_eq; rw [BitVec.toNat_ofNat, h]; omega

/-- The indicator of "the word is `k`", widened and converted: the extended real 1 or 0. -/
theorem onehot_word (a : BitVec 32) (k : Fin 1000) (ha : a.toNat < 1000) :
    (FloatOps.sitofp (F := Ideal) .f32 ((IntOp.cmpi .eq a (BitVec.ofNat 32 k.val)).setWidth 32) : EReal)
      = if a.toNat = k.val then 1 else 0 := by
  by_cases h : a.toNat = k.val
  · rw [if_pos h, (word_eq_iff a k ha).mpr h]
    show (((((IntOp.cmpi .eq (BitVec.ofNat 32 k.val) (BitVec.ofNat 32 k.val)).setWidth 32).toInt : ℝ)) : EReal) = 1
    have : IntOp.cmpi .eq (BitVec.ofNat 32 k.val) (BitVec.ofNat 32 k.val) = 1#1 := by
      unfold IntOp.cmpi; simp
    rw [this]
    norm_num
  · rw [if_neg h]
    have hne : ¬ a = BitVec.ofNat 32 k.val := fun e => h ((word_eq_iff a k ha).mp e)
    show (((((IntOp.cmpi .eq a (BitVec.ofNat 32 k.val)).setWidth 32).toInt : ℝ)) : EReal) = 0
    have : IntOp.cmpi .eq a (BitVec.ofNat 32 k.val) = 0#1 := by
      unfold IntOp.cmpi
      have hb : (a == BitVec.ofNat 32 k.val) = false := by simpa using hne
      show BitVec.ofBool (a == BitVec.ofNat 32 k.val) = 0#1
      rw [hb]; rfl
    rw [this]
    norm_num

/-- The left factor of the block product at (p, k): 1 when row p's label word is k, else 0. -/
theorem onehot_apply (x0 : Vec Ideal S2000x1 .i32) (p : Fin 2000) (k : Fin 1000)
    (h : (x0 (ix2 p (0 : Fin 1)) : BitVec 32).toNat < 1000) :
    (truncf (F := Ideal) .bf16 (sitofp .f32 (extui 32 (cmpi .eq
        (broadcastTo S2000x1000 (shapeCast S2000x1 x0 shapeCasts_S2000x1_S2000x1) broadcasts_S2000x1_S2000x1000)
        (iota .tc S2000x1000 32 [1] iota_S2000x1000_d1_w32)) natLt_1_32)) bitsLt_bf16_f32 : FVec Ideal S2000x1000 .bf16) (ix2 p k)
      = if (x0 (ix2 p (0 : Fin 1)) : BitVec 32).toNat = k.val then (1 : EReal) else 0 := by
  rw [truncf_apply, sitofp_apply, extui_apply]
  show FloatOps.sitofp (F := Ideal) .f32 ((IntOp.cmpi .eq
      (broadcastTo S2000x1000 (shapeCast S2000x1 x0 shapeCasts_S2000x1_S2000x1) broadcasts_S2000x1_S2000x1000 (ix2 p k))
      (iota .tc S2000x1000 32 [1] iota_S2000x1000_d1_w32 (ix2 p k))).setWidth 32) = _
  rw [Cert.LibColumn.broadcastTo_a1_ab_apply, shapeCast_self, iota_single_apply]
  exact onehot_word _ k h

/-- One block of the lookup at an entry: with the row's label word in 0 … 999, the sum over the table's rows of
    "label = k" times the table's entry (k, q) keeps the one term at the label. -/
theorem pay_apply (x0 : Vec Ideal S2000x1 .i32) (x1 : Vec Ideal S1000x128 .f32) (p : Fin 2000) (q : Fin 128)
    (h : (x0 (ix2 p (0 : Fin 1)) : BitVec 32).toNat < 1000) :
    k0_pay1 (F := Ideal) x0 x1 (ix2 p q) = x1 (ix2 ⟨(x0 (ix2 p (0 : Fin 1)) : BitVec 32).toNat, h⟩ q) := by
  unfold k0_pay1
  dsimp only
  refine (Cert.LibPlainDot.matmul_zero_apply dot_S2000x1000_S1000x128_S2000x128_1_0_0_1_n_n rfl rfl rfl rfl rfl rfl none _ _ p q).trans ?_
  rw [Finset.sum_eq_single (⟨(x0 (ix2 p (0 : Fin 1)) : BitVec 32).toNat, h⟩ : Fin 1000)]
  · rw [onehot_apply x0 p _ h, if_pos rfl, one_mul, truncf_apply]
  · intro k _ hk
    rw [onehot_apply x0 p k h, if_neg (fun e => hk (Fin.ext e.symm)), zero_mul]
  · intro hn; exact absurd (Finset.mem_univ _) hn

/-! ## The reference's lookup at an entry -/

/-- A 32-bit word whose signed value is in 0 … 999 has that unsigned value too. -/
theorem toNat_of_toInt (a : BitVec 32) (h0 : 0 ≤ a.toInt) (h1 : a.toInt < 1000) : a.toNat < 1000 ∧ a.toInt = (a.toNat : ℤ) := by
  have := a.isLt
  rw [BitVec.toInt_eq_toNat_cond] at h0 h1 ⊢
  split at h0 <;> split at h1 <;> constructor <;> omega

/-- The reference's lookup at an entry: with label e in 0 … 999, the table's row at the label. -/
theorem look_apply [Cert.ReferenceIdeal.Facts] (emb : FVec Ideal S1000x128 .f32) (lab : IVec S50000 32) (e : Fin 50000) (j : Fin 128)
    (h0 : 0 ≤ (lab (ix1 e)).toInt) (h1 : (lab (ix1 e)).toInt < 1000) :
    Cert.Gcn.look (F := Ideal) emb lab (ix2 e j) = emb (ix2 ⟨(lab (ix1 e)).toNat, (toNat_of_toInt _ h0 h1).1⟩ j) := by
  obtain ⟨hlt, hint⟩ := toNat_of_toInt _ h0 h1
  unfold Cert.Gcn.look
  refine (Cert.LibScatterGather2.gather_apply_clamp _ rfl rfl rfl rfl rfl _ _ e j (by norm_num)).trans ?_
  refine congrArg (fun r => emb (ix2 r j)) (Fin.ext ?_)
  show min ((broadcastInDim Cert.ReferenceIdeal.S50000x1 ![0] _ (select (cmpi .slt lab _) _ lab) (ix2 e (0 : Fin 1))).toInt.toNat) (1000 - 1) = (lab (ix1 e)).toNat
  rw [broadcastInDim_apply _ _ _ (ix2 e (0 : Fin 1)) (ix1 e) (fun a => by match a with | ⟨0, _⟩ => rfl)]
  rw [select_apply]
  have hc : cmpi .slt lab (broadcastInDim Cert.ReferenceIdeal.S50000 ![] Cert.ReferenceIdeal.Facts₀.bcast_S_S50000 (constantI Cert.ReferenceIdeal.S_ 32 0#32)) (ix1 e) = 0#1 := by
    show IntOp.cmpi .slt (lab (ix1 e)) (broadcastInDim Cert.ReferenceIdeal.S50000 ![] _ (constantI Cert.ReferenceIdeal.S_ 32 0#32) (ix1 e)) = 0#1
    rw [broadcastInDim_apply _ _ _ (ix1 e) ix0 (fun a => a.elim0), constantI_apply]
    unfold IntOp.cmpi
    show BitVec.ofBool ((lab (ix1 e)).slt 0#32) = 0#1
    have hb : (lab (ix1 e)).slt 0#32 = false := by
      rw [BitVec.slt]; simp; exact h0
    rw [hb]; rfl
  rw [hc, select_zero, hint, Int.toNat_natCast]
  omega

/-! ## The blocks, and from the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The three index maps over the 25 grid points: the label column and the output move down one block of rows per
    point, the table stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 25 :=
  (by decide +kernel : ∀ t : Fin grid0.N, _)

/-- Every block of rows of the output is some point's. -/
theorem idx_onto : ∀ q0 : Fin 25, ∃ t : Fin cfg0.N, win0_2.index t = ![q0.val, 0] :=
  (by decide +kernel : ∀ q0 : Fin 25, ∃ t : Fin grid0.N, win0_2.index t = ![q0.val, 0])

/-- The label column's block at point t, row p: label 2000 t + p. -/
theorem labelBlock_apply (c : Dev nD) (lab : IVec S50000 32)
    (hlab : V c main_v32 = shapeCast S50000x1 lab shapeCasts_S50000_S50000x1) (t : Fin cfg0.N) (p : Fin 2000)
    (hrow : 2000 * t.val + p.val < 50000) :
    (iblk0 V c 0 t : Vec Ideal S2000x1 .i32) (ix2 p (0 : Fin 1)) = lab (ix1 ⟨2000 * t.val + p.val, hrow⟩) := by
  obtain ⟨e0, e1, -⟩ := idx_facts t
  unfold iblk0
  rw [View.read_apply]
  show V c main_v32 (((cfg0.win 0).blk t).view.emb (ix2 p (0 : Fin 1))) = _
  rw [hlab]
  refine shapeCast_apply _ _ _ _ ?_
  rw [Shape.rowMajor_val_one, Shape.rowMajor_val_two]
  show 2000 * t.val + p.val = (win0_0.index t (0 : Fin 2) * 2000 + 1 * p.val) * 1 + (win0_0.index t (1 : Fin 2) * 1 + 1 * 0)
  rw [e0, e1]; omega

/-- The table's block at any point is the table. -/
theorem tableBlock_apply (c : Dev nD) (t : Fin cfg0.N) (y : S1000x128.Idx) :
    (iblk0 V c 1 t : Vec Ideal S1000x128 .f32) y = V c main_arg3 y := by
  obtain ⟨-, -, e2, e3, -⟩ := idx_facts t
  unfold iblk0
  rw [View.read_apply]
  show V c main_arg3 (((cfg0.win 1).blk t).view.emb y) = _
  congr 1
  funext a; apply Fin.ext
  match a with
  | ⟨0, _⟩ => show win0_1.index t (0 : Fin 2) * 1000 + 1 * (y 0).val = (y 0).val; rw [e2]; omega
  | ⟨1, _⟩ => show win0_1.index t (1 : Fin 2) * 128 + 1 * (y 1).val = (y 1).val; rw [e3]; omega

/-- Entry (p, q) of the output's block at point t sits at row 2000 t + p, column q of the array. -/
theorem outBlock_emb (t : Fin cfg0.N) (p : Fin 2000) (q : Fin 128) (hrow : 2000 * t.val + p.val < 50000) :
    ((cfg0.win 2).blk t).view.emb (ix2 p q) = ix2 (⟨2000 * t.val + p.val, hrow⟩ : Fin 50000) q := by
  obtain ⟨-, -, -, -, e4, e5, -⟩ := idx_facts t
  funext a; apply Fin.ext
  match a with
  | ⟨0, _⟩ => show win0_2.index t (0 : Fin 2) * 2000 + 1 * p.val = 2000 * t.val + p.val; rw [e4]; omega
  | ⟨1, _⟩ => show win0_2.index t (1 : Fin 2) * 128 + 1 * q.val = q.val; rw [e5]; omega

/-- What point t writes back is block t of the reference's lookup of the table the region finds. -/
theorem flushed_eq [Cert.ReferenceIdeal.Facts] (c : Dev nD) (lab : IVec S50000 32)
    (hlab : V c main_v32 = shapeCast S50000x1 lab shapeCasts_S50000_S50000x1)
    (hr : ∀ i : S50000.Idx, 0 ≤ (lab i).toInt ∧ (lab i).toInt < 1000) (t : Fin cfg0.N) :
    (dat0 (F := Ideal) V c).flushed 2 t
      = ((cfg0.win 2).blk t).view.read (Elt Ideal) (Cert.Gcn.look (F := Ideal) (V c main_arg3) lab) := by
  show (cfg0.win 2).cut (grid0.coords t) ((dat0 (F := Ideal) V c).after 2 t) = _
  rw [after0_2]
  unfold out0_2
  rw [View.canon_unit_zero hz]
  simp only [View.ld_unit_zero (S := S2000x1) hz, View.ld_unit_zero (S := S1000x128) hz]
  have ht : t.val < 25 := (idx_facts t).2.2.2.2.2.2
  funext j
  obtain ⟨p, q, rfl⟩ : ∃ (p : Fin 2000) (q : Fin 128), j = ix2 p q := ⟨j 0, j 1, eq_ix2 j⟩
  have hrow : 2000 * t.val + p.val < 50000 := by have := p.isLt; omega
  show k0_pay1 (F := Ideal) (iblk0 V c 0 t) (iblk0 V c 1 t) (ix2 p q)
      = Cert.Gcn.look (F := Ideal) (V c main_arg3) lab (((cfg0.win 2).blk t).view.emb (ix2 p q))
  have hl := labelBlock_apply V c lab hlab t p hrow
  obtain ⟨h0, h1⟩ := hr (ix1 ⟨2000 * t.val + p.val, hrow⟩)
  have hlt : ((iblk0 V c 0 t : Vec Ideal S2000x1 .i32) (ix2 p (0 : Fin 1)) : BitVec 32).toNat < 1000 := by
    rw [hl]; exact (toNat_of_toInt _ h0 h1).1
  refine (pay_apply (iblk0 V c 0 t) (iblk0 V c 1 t) p q hlt).trans ?_
  rw [tableBlock_apply, outBlock_emb t p q hrow, look_apply _ _ _ _ h0 h1]
  exact congrArg (fun r => V c main_arg3 (ix2 r q)) (Fin.ext (congrArg BitVec.toNat hl))

/-- An index of the output array is in point t's block iff each coordinate is in the block's range on its axis. -/
theorem mem_blk (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v33).slice (win0_2.rect t)).set ↔ _
  rw [View.set_slice_whole, Rect.mem_set_unit]
  exact Iff.rfl

/-- Row r of the output is in the block of point r / 2000, which writes back. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- After the region its output array holds the embedding rows picked by the labels, provided the label column the
    region finds is the reshaped label vector `lab` and every label is in range. -/
theorem arr_eq_look [Cert.ReferenceIdeal.Facts] (c : Dev nD) (lab : IVec S50000 32)
    (hlab : V c main_v32 = shapeCast S50000x1 lab shapeCasts_S50000_S50000x1)
    (hr : ∀ i : S50000.Idx, 0 ≤ (lab i).toInt ∧ (lab i).toInt < 1000) :
    (dat0 (F := Ideal) V c).arrAt 2 cfg0.N = Cert.Gcn.look (F := Ideal) (V c main_arg3) lab :=
  (dat0 (F := Ideal) V c).arrAt_eq_of_cover 2 (Cert.Gcn.look (F := Ideal) (V c main_arg3) lab)
    (fun t _ => flushed_eq V c lab hlab hr t) covered

end Cert.KernelIdeal.Region0
end
-- ==== Proof.Region1.lean ====
/-
  Kernel region 1 (a linear transform of the node features), read as a value.
  Each grid point t takes rows 5000·t … 5000·t + 4999 of the feature matrix and the whole 128 × 128 weight matrix,
  and writes back their product; the ten blocks tile the 50000 rows, so the output array is the product of the two
  arrays the region finds, entry (i, j) the plain sum Σ_k x (i, k) · w (k, j) — the host's dot_general at the same index.
-/
import proofs.«430550_j8693013807597_1_alg».proof.Proof.Gen.KernelIdeal.Frame
import proofs.«430550_j8693013807597_1_alg».proof.Proof.Gcn
import proofs.«430550_j8693013807597_1_alg».proof.Proof.LibPlainDot
import Idealize.ShloMosaic.Lib.Pipeline.Value

set_option maxRecDepth 16384

noncomputable section

namespace Cert.KernelIdeal.Region1

open Idealize.ShloMosaic Idealize.ShloMosaic.TcCoe Idealize.SL.Sem Cert.KernelIdeal Cert.KernelIdeal.Gen
open Idealize.ShloMosaic.ValueIdx
open scoped BigOperators

variable (V : (c : Dev nD) → (b : Ref sig .tc) → Buf (Elt Ideal) ((c : Thread nD τ).loc b))

/-- The body's one load of each input and its one store all start at the origin of their buffers. -/
theorem hz : (![0, 0] : Fin 2 → Nat) = fun _ => 0 := funext fun a => by fin_cases a <;> rfl

/-- The block product at entry (p, q): the shape cast is onto the same shape and the narrowing of the operands is the
    identity on extended reals, so what is left is the plain sum over the 128 contracted columns. -/
theorem pay_apply [Cert.KernelIdeal.Facts] (x0 : Vec Ideal S5000x128 .f32) (x1 : Vec Ideal S128x128 .f32) (p : Fin 5000) (q : Fin 128) :
    k1_pay1 (F := Ideal) x0 x1 (ix2 p q) = ∑ k : Fin 128, x0 (ix2 p k) * x1 (ix2 k q) := by
  unfold k1_pay1
  rw [shapeCast_self]
  exact Cert.LibPlainDot.matmul_zero_apply _ rfl rfl rfl rfl rfl rfl none _ _ p q

/-- The host's product at entry (i, j): the same plain sum. -/
theorem dot_apply [Cert.ReferenceIdeal.Facts] (x : FVec Ideal S50000x128 .f32) (w : FVec Ideal S128x128 .f32) (i : Fin 50000) (j : Fin 128) :
    Cert.Gcn.dot (F := Ideal) x w (ix2 i j) = ∑ k : Fin 128, x (ix2 i k) * w (ix2 k j) := by
  unfold Cert.Gcn.dot
  exact Cert.LibPlainDot.dotGeneral_apply _ rfl rfl rfl rfl rfl rfl none .single x w i j

/-- The index maps over the ten grid points: the feature window and the output window sit on the same row block,
    namely block t, at column block 0; the weight window is always the whole matrix. -/
theorem idx_facts : ∀ t : Fin cfg1.N,
    win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- The feature window's block, read at a block index, is the feature array at that index carried into the array. -/
theorem iblk_x_apply (c : Dev nD) (t : Fin cfg1.N) (y : S5000x128.Idx) :
    iblk1 (F := Ideal) V c 0 t y = V c main_v33 (((cfg1.win 0).blk t).view.emb y) := rfl

/-- The weight window's block likewise. -/
theorem iblk_w_apply (c : Dev nD) (t : Fin cfg1.N) (y : S128x128.Idx) :
    iblk1 (F := Ideal) V c 1 t y = V c main_arg4 (((cfg1.win 1).blk t).view.emb y) := rfl

/-- What point t writes back is block t of the product of the two arrays. Block entry (p, q) is the sum over k of
    x (5000·t + p, k) · w (k, q): the feature block's row p is row 5000·t + p of the array, the weight block is the
    whole matrix, and the output block's entry (p, q) is entry (5000·t + p, q) of the array, where the host's product
    is the same sum. -/
theorem flushed_eq [Cert.ReferenceIdeal.Facts] (c : Dev nD) (t : Fin cfg1.N) :
    (dat1 (F := Ideal) V c).flushed 2 t
      = ((cfg1.win 2).blk t).view.read (Elt Ideal) (Cert.Gcn.dot (F := Ideal) (V c main_v33) (V c main_arg4)) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x128) hz]
  funext j
  obtain ⟨p, q, rfl⟩ : ∃ (p : Fin 5000) (q : Fin 128), j = ix2 p q := ⟨j 0, j 1, eq_ix2 j⟩
  show k1_pay1 (F := Ideal) (iblk1 V c 0 t) (iblk1 V c 1 t) (ix2 p q)
      = Cert.Gcn.dot (F := Ideal) (V c main_v33) (V c main_arg4) (((cfg1.win 2).blk t).view.emb (ix2 p q))
  obtain ⟨e0, e1, e2, e3, e4, e5⟩ := idx_facts t
  obtain ⟨i, j, hij⟩ : ∃ (i : Fin 50000) (j : Fin 128), ((cfg1.win 2).blk t).view.emb (ix2 p q) = ix2 i j :=
    ⟨_, _, eq_ix2 _⟩
  have hi : win1_2.index t (0 : Fin 2) * 5000 + 1 * p.val = i.val := congrArg (fun z => (z 0).val) hij
  have hj : win1_2.index t (1 : Fin 2) * 128 + 1 * q.val = j.val := congrArg (fun z => (z 1).val) hij
  rw [pay_apply, hij, dot_apply]
  refine Finset.sum_congr rfl fun k _ => ?_
  rw [iblk_x_apply, iblk_w_apply]
  have h0 : ((cfg1.win 0).blk t).view.emb (ix2 p k) = ix2 i k := by
    funext a; apply Fin.ext
    match a with
    | ⟨0, _⟩ => show win1_0.index t (0 : Fin 2) * 5000 + 1 * p.val = i.val; omega
    | ⟨1, _⟩ => show win1_0.index t (1 : Fin 2) * 128 + 1 * k.val = k.val; omega
  have h1 : ((cfg1.win 1).blk t).view.emb (ix2 k q) = ix2 k j := by
    funext a; apply Fin.ext
    match a with
    | ⟨0, _⟩ => show win1_1.index t (0 : Fin 2) * 128 + 1 * k.val = k.val; omega
    | ⟨1, _⟩ => show win1_1.index t (1 : Fin 2) * 128 + 1 * q.val = j.val; omega
  rw [h0, h1]

/-- An index of the output array is in point t's block iff each coordinate is in the block's range on its axis. -/
theorem mem_blk (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v34).slice (win1_2.rect t)).set ↔ _
  rw [View.set_slice_whole, Rect.mem_set_unit]
  exact Iff.rfl

/-- The ten row blocks tile the 50000 rows: row r lies in the block of point r / 5000, and every point writes back. -/
theorem covered (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ : ∃ t : Fin cfg1.N, t.val = (i 0).val / 5000 :=
    ⟨⟨(i 0).val / 5000, by show (i 0).val / 5000 < 10; omega⟩, rfl⟩
  obtain ⟨-, -, -, -, e4, e5⟩ := idx_facts t
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- After the region its output array is the matrix product of the two arrays the region finds. -/
theorem arr_eq_dot [Cert.ReferenceIdeal.Facts] (c : Dev nD) :
    (dat1 (F := Ideal) V c).arrAt 2 cfg1.N = Cert.Gcn.dot (F := Ideal) (V c main_v33) (V c main_arg4) :=
  (dat1 (F := Ideal) V c).arrAt_eq_of_cover 2 _ (fun t _ => flushed_eq V c t) covered

end Cert.KernelIdeal.Region1

end
-- ==== Proof.Region2.lean ====
/-
  Kernel region 2 (a linear transform of the node features), read as a value.
  Each grid point t takes rows 5000·t … 5000·t + 4999 of the feature matrix and the whole 128 × 128 weight matrix,
  and writes back their product; the ten blocks tile the 50000 rows, so the output array is the product of the two
  arrays the region finds, entry (i, j) the plain sum Σ_k x (i, k) · w (k, j) — the host's dot_general at the same index.
-/
import proofs.«430550_j8693013807597_1_alg».proof.Proof.Gen.KernelIdeal.Frame
import proofs.«430550_j8693013807597_1_alg».proof.Proof.Gcn
import proofs.«430550_j8693013807597_1_alg».proof.Proof.LibPlainDot
import Idealize.ShloMosaic.Lib.Pipeline.Value

set_option maxRecDepth 16384

noncomputable section

namespace Cert.KernelIdeal.Region2

open Idealize.ShloMosaic Idealize.ShloMosaic.TcCoe Idealize.SL.Sem Cert.KernelIdeal Cert.KernelIdeal.Gen
open Idealize.ShloMosaic.ValueIdx
open scoped BigOperators

variable (V : (c : Dev nD) → (b : Ref sig .tc) → Buf (Elt Ideal) ((c : Thread nD τ).loc b))

/-- The body's one load of each input and its one store all start at the origin of their buffers. -/
theorem hz : (![0, 0] : Fin 2 → Nat) = fun _ => 0 := funext fun a => by fin_cases a <;> rfl

/-- The block product at entry (p, q): the shape cast is onto the same shape and the narrowing of the operands is the
    identity on extended reals, so what is left is the plain sum over the 128 contracted columns. -/
theorem pay_apply [Cert.KernelIdeal.Facts] (x0 : Vec Ideal S5000x128 .f32) (x1 : Vec Ideal S128x128 .f32) (p : Fin 5000) (q : Fin 128) :
    k2_pay1 (F := Ideal) x0 x1 (ix2 p q) = ∑ k : Fin 128, x0 (ix2 p k) * x1 (ix2 k q) := by
  unfold k2_pay1
  rw [shapeCast_self]
  exact Cert.LibPlainDot.matmul_zero_apply _ rfl rfl rfl rfl rfl rfl none _ _ p q

/-- The host's product at entry (i, j): the same plain sum. -/
theorem dot_apply [Cert.ReferenceIdeal.Facts] (x : FVec Ideal S50000x128 .f32) (w : FVec Ideal S128x128 .f32) (i : Fin 50000) (j : Fin 128) :
    Cert.Gcn.dot (F := Ideal) x w (ix2 i j) = ∑ k : Fin 128, x (ix2 i k) * w (ix2 k j) := by
  unfold Cert.Gcn.dot
  exact Cert.LibPlainDot.dotGeneral_apply _ rfl rfl rfl rfl rfl rfl none .single x w i j

/-- The index maps over the ten grid points: the feature window and the output window sit on the same row block,
    namely block t, at column block 0; the weight window is always the whole matrix. -/
theorem idx_facts : ∀ t : Fin cfg2.N,
    win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- The feature window's block, read at a block index, is the feature array at that index carried into the array. -/
theorem iblk_x_apply (c : Dev nD) (t : Fin cfg2.N) (y : S5000x128.Idx) :
    iblk2 (F := Ideal) V c 0 t y = V c main_v51 (((cfg2.win 0).blk t).view.emb y) := rfl

/-- The weight window's block likewise. -/
theorem iblk_w_apply (c : Dev nD) (t : Fin cfg2.N) (y : S128x128.Idx) :
    iblk2 (F := Ideal) V c 1 t y = V c main_arg6 (((cfg2.win 1).blk t).view.emb y) := rfl

/-- What point t writes back is block t of the product of the two arrays. Block entry (p, q) is the sum over k of
    x (5000·t + p, k) · w (k, q): the feature block's row p is row 5000·t + p of the array, the weight block is the
    whole matrix, and the output block's entry (p, q) is entry (5000·t + p, q) of the array, where the host's product
    is the same sum. -/
theorem flushed_eq [Cert.ReferenceIdeal.Facts] (c : Dev nD) (t : Fin cfg2.N) :
    (dat2 (F := Ideal) V c).flushed 2 t
      = ((cfg2.win 2).blk t).view.read (Elt Ideal) (Cert.Gcn.dot (F := Ideal) (V c main_v51) (V c main_arg6)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  funext j
  obtain ⟨p, q, rfl⟩ : ∃ (p : Fin 5000) (q : Fin 128), j = ix2 p q := ⟨j 0, j 1, eq_ix2 j⟩
  show k2_pay1 (F := Ideal) (iblk2 V c 0 t) (iblk2 V c 1 t) (ix2 p q)
      = Cert.Gcn.dot (F := Ideal) (V c main_v51) (V c main_arg6) (((cfg2.win 2).blk t).view.emb (ix2 p q))
  obtain ⟨e0, e1, e2, e3, e4, e5⟩ := idx_facts t
  obtain ⟨i, j, hij⟩ : ∃ (i : Fin 50000) (j : Fin 128), ((cfg2.win 2).blk t).view.emb (ix2 p q) = ix2 i j :=
    ⟨_, _, eq_ix2 _⟩
  have hi : win2_2.index t (0 : Fin 2) * 5000 + 1 * p.val = i.val := congrArg (fun z => (z 0).val) hij
  have hj : win2_2.index t (1 : Fin 2) * 128 + 1 * q.val = j.val := congrArg (fun z => (z 1).val) hij
  rw [pay_apply, hij, dot_apply]
  refine Finset.sum_congr rfl fun k _ => ?_
  rw [iblk_x_apply, iblk_w_apply]
  have h0 : ((cfg2.win 0).blk t).view.emb (ix2 p k) = ix2 i k := by
    funext a; apply Fin.ext
    match a with
    | ⟨0, _⟩ => show win2_0.index t (0 : Fin 2) * 5000 + 1 * p.val = i.val; omega
    | ⟨1, _⟩ => show win2_0.index t (1 : Fin 2) * 128 + 1 * k.val = k.val; omega
  have h1 : ((cfg2.win 1).blk t).view.emb (ix2 k q) = ix2 k j := by
    funext a; apply Fin.ext
    match a with
    | ⟨0, _⟩ => show win2_1.index t (0 : Fin 2) * 128 + 1 * k.val = k.val; omega
    | ⟨1, _⟩ => show win2_1.index t (1 : Fin 2) * 128 + 1 * q.val = j.val; omega
  rw [h0, h1]

/-- An index of the output array is in point t's block iff each coordinate is in the block's range on its axis. -/
theorem mem_blk (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v52).slice (win2_2.rect t)).set ↔ _
  rw [View.set_slice_whole, Rect.mem_set_unit]
  exact Iff.rfl

/-- The ten row blocks tile the 50000 rows: row r lies in the block of point r / 5000, and every point writes back. -/
theorem covered (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ : ∃ t : Fin cfg2.N, t.val = (i 0).val / 5000 :=
    ⟨⟨(i 0).val / 5000, by show (i 0).val / 5000 < 10; omega⟩, rfl⟩
  obtain ⟨-, -, -, -, e4, e5⟩ := idx_facts t
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- After the region its output array is the matrix product of the two arrays the region finds. -/
theorem arr_eq_dot [Cert.ReferenceIdeal.Facts] (c : Dev nD) :
    (dat2 (F := Ideal) V c).arrAt 2 cfg2.N = Cert.Gcn.dot (F := Ideal) (V c main_v51) (V c main_arg6) :=
  (dat2 (F := Ideal) V c).arrAt_eq_of_cover 2 _ (fun t _ => flushed_eq V c t) covered

end Cert.KernelIdeal.Region2

end
-- ==== Proof.HostA.lean ====
/-
  The kernel program's host stretch before its first region, read as values: from the launch memory the
  stretch computes the edge list's two rows with the self loops appended, the weights with ones appended, the
  degrees, their inverse square roots and the per-entry normalisation — the same operations the reference applies —
  and reshapes the label vector to a column; no argument array is written.
-/
import proofs.«430550_j8693013807597_1_alg».proof.Proof.Gen.KernelIdeal.Frame
import proofs.«430550_j8693013807597_1_alg».proof.Proof.Gcn
import Idealize.ShloMosaic.Lib.StableHlo.Run

set_option maxRecDepth 16384

noncomputable section

namespace Cert.KernelIdeal.Host

open Idealize.ShloMosaic Idealize.ShloMosaic.TcCoe Idealize.SL.Sem Idealize.ShloMosaic.StableHlo Cert.KernelIdeal Cert.KernelIdeal.Gen

variable {F : FTy → Type} [FloatOps F] [Cert.ReferenceIdeal.Facts]
variable (m : (ℓ : Loc nD τ sig) → Buf (Elt F) ℓ) (ρ : Dev nD → PrngReg)

/-- A buffer that no operation of the stretch `s` writes holds after it what it held before. -/
local macro "unwritten " s:ident : tactic =>
  `(tactic| (refine StableHlo.after_of_forall_not_mem _ _ (List.forall_iff_forall_mem.mp ?_)
             simp only [$s:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-! ## After the first stretch: sources, destinations, weights, degrees and the two branches of the inverse square root -/

/-- After the first stretch the source-node buffer holds `src` of the edge list. -/
theorem W1_src (c : Dev nD) : W1 m ρ c (Proc.devRef .tc main_v3) = Cert.Gcn.src (m ((c : Thread nD τ).loc main_arg1)) := by
  show StableHlo.after hostOps0 (W0 m ρ c) (Proc.devRef .tc main_v3) = _
  after_results
  rfl

/-- … the destination-node buffer `dst`. -/
theorem W1_dst (c : Dev nD) : W1 m ρ c (Proc.devRef .tc main_v6) = Cert.Gcn.dst (m ((c : Thread nD τ).loc main_arg1)) := by
  show StableHlo.after hostOps0 (W0 m ρ c) (Proc.devRef .tc main_v6) = _
  after_results
  rfl

/-- … the weight buffer the edge weights followed by ones. -/
theorem W1_ew (c : Dev nD) : W1 m ρ c (Proc.devRef .tc main_v8) = Cert.Gcn.ew (m ((c : Thread nD τ).loc main_arg2)) := by
  show StableHlo.after hostOps0 (W0 m ρ c) (Proc.devRef .tc main_v8) = _
  after_results
  rfl

/-- … the comparison buffer where the degree is positive. -/
theorem W1_pos (c : Dev nD) : W1 m ρ c (Proc.devRef .tc main_v13)
    = cmpf .ogt (Cert.Gcn.deg (m ((c : Thread nD τ).loc main_arg1)) (m ((c : Thread nD τ).loc main_arg2)))
        (broadcastInDim S50000 ![] bcast_S_S50000 (constant S_ .f32 0x00000000#32)) := by
  show StableHlo.after hostOps0 (W0 m ρ c) (Proc.devRef .tc main_v13) = _
  after_results
  rfl

/-- … the reciprocal-square-root buffer that of the degree. -/
theorem W1_rsqrt (c : Dev nD) : W1 m ρ c (Proc.devRef .tc main_v14)
    = Host.rsqrt (Cert.Gcn.deg (m ((c : Thread nD τ).loc main_arg1)) (m ((c : Thread nD τ).loc main_arg2))) := by
  show StableHlo.after hostOps0 (W0 m ρ c) (Proc.devRef .tc main_v14) = _
  after_results
  rfl

/-- … the last constant buffer zero. -/
theorem W1_zero (c : Dev nD) : W1 m ρ c (Proc.devRef .tc main_cst_2) = constant S_ .f32 0x00000000#32 := by
  show StableHlo.after hostOps0 (W0 m ρ c) (Proc.devRef .tc main_cst_2) = _
  after_results

/-! ## After the selection: the inverse square roots, the rest carried -/

/-- After the selection its result buffer holds `dinv`. -/
theorem W2_dinv (c : Dev nD) : W2 m ρ c (Proc.devRef .tc main_v15)
    = Cert.Gcn.dinv (m ((c : Thread nD τ).loc main_arg1)) (m ((c : Thread nD τ).loc main_arg2)) := by
  have hp := W1_pos m ρ c
  have hr := W1_rsqrt m ρ c
  have hz := W1_zero m ρ c
  show StableHlo.after hostOps0_1 (W1 m ρ c) (Proc.devRef .tc main_v15) = _
  generalize W1 m ρ c = V at hp hr hz ⊢
  after_results
  rw [hp, hr, hz]
  rfl

theorem W2_src (c : Dev nD) : W2 m ρ c (Proc.devRef .tc main_v3) = Cert.Gcn.src (m ((c : Thread nD τ).loc main_arg1)) :=
  (by unwritten hostOps0_1 : W2 m ρ c (Proc.devRef .tc main_v3) = W1 m ρ c (Proc.devRef .tc main_v3)).trans (W1_src m ρ c)

theorem W2_dst (c : Dev nD) : W2 m ρ c (Proc.devRef .tc main_v6) = Cert.Gcn.dst (m ((c : Thread nD τ).loc main_arg1)) :=
  (by unwritten hostOps0_1 : W2 m ρ c (Proc.devRef .tc main_v6) = W1 m ρ c (Proc.devRef .tc main_v6)).trans (W1_dst m ρ c)

theorem W2_ew (c : Dev nD) : W2 m ρ c (Proc.devRef .tc main_v8) = Cert.Gcn.ew (m ((c : Thread nD τ).loc main_arg2)) :=
  (by unwritten hostOps0_1 : W2 m ρ c (Proc.devRef .tc main_v8) = W1 m ρ c (Proc.devRef .tc main_v8)).trans (W1_ew m ρ c)

/-! ## The arguments: no operation of the three stretches writes one -/

set_option hygiene false in
/-- A buffer none of the three stretches writes is as launched when region 0 is entered. -/
local macro "as_launched " b:ident : tactic =>
  `(tactic| exact
      ((by unwritten hostOps0_2 : W3 m ρ c (Proc.devRef .tc $b) = W2 m ρ c (Proc.devRef .tc $b)).trans
        ((by unwritten hostOps0_1 : W2 m ρ c (Proc.devRef .tc $b) = W1 m ρ c (Proc.devRef .tc $b)).trans
          (by unwritten hostOps0 : W1 m ρ c (Proc.devRef .tc $b) = W0 m ρ c (Proc.devRef .tc $b)))))

theorem W3_main_arg0 (c : Dev nD) : W3 m ρ c (Proc.devRef .tc main_arg0) = W0 m ρ c (Proc.devRef .tc main_arg0) := by as_launched main_arg0
theorem W3_main_arg1 (c : Dev nD) : W3 m ρ c (Proc.devRef .tc main_arg1) = W0 m ρ c (Proc.devRef .tc main_arg1) := by as_launched main_arg1
theorem W3_main_arg2 (c : Dev nD) : W3 m ρ c (Proc.devRef .tc main_arg2) = W0 m ρ c (Proc.devRef .tc main_arg2) := by as_launched main_arg2
theorem W3_main_arg3 (c : Dev nD) : W3 m ρ c (Proc.devRef .tc main_arg3) = W0 m ρ c (Proc.devRef .tc main_arg3) := by as_launched main_arg3
theorem W3_main_arg4 (c : Dev nD) : W3 m ρ c (Proc.devRef .tc main_arg4) = W0 m ρ c (Proc.devRef .tc main_arg4) := by as_launched main_arg4
theorem W3_main_arg5 (c : Dev nD) : W3 m ρ c (Proc.devRef .tc main_arg5) = W0 m ρ c (Proc.devRef .tc main_arg5) := by as_launched main_arg5
theorem W3_main_arg6 (c : Dev nD) : W3 m ρ c (Proc.devRef .tc main_arg6) = W0 m ρ c (Proc.devRef .tc main_arg6) := by as_launched main_arg6
theorem W3_main_arg7 (c : Dev nD) : W3 m ρ c (Proc.devRef .tc main_arg7) = W0 m ρ c (Proc.devRef .tc main_arg7) := by as_launched main_arg7

/-- The label vector is as launched after the first two stretches. -/
theorem W2_main_arg0 (c : Dev nD) : W2 m ρ c (Proc.devRef .tc main_arg0) = m ((c : Thread nD τ).loc main_arg0) :=
  (by unwritten hostOps0_1 : W2 m ρ c (Proc.devRef .tc main_arg0) = W1 m ρ c (Proc.devRef .tc main_arg0)).trans
    (by unwritten hostOps0 : W1 m ρ c (Proc.devRef .tc main_arg0) = W0 m ρ c (Proc.devRef .tc main_arg0))

/-! ## Entering region 0 -/

/-- Entering region 0 the source-node buffer holds `src` of the edge list. -/
theorem W3_src (c : Dev nD) : W3 m ρ c (Proc.devRef .tc main_v3) = Cert.Gcn.src (m ((c : Thread nD τ).loc main_arg1)) :=
  (by unwritten hostOps0_2 : W3 m ρ c (Proc.devRef .tc main_v3) = W2 m ρ c (Proc.devRef .tc main_v3)).trans (W2_src m ρ c)
/-- … the destination-node buffer `dst`. -/
theorem W3_dst (c : Dev nD) : W3 m ρ c (Proc.devRef .tc main_v6) = Cert.Gcn.dst (m ((c : Thread nD τ).loc main_arg1)) :=
  (by unwritten hostOps0_2 : W3 m ρ c (Proc.devRef .tc main_v6) = W2 m ρ c (Proc.devRef .tc main_v6)).trans (W2_dst m ρ c)
/-- … the normalisation buffer `norm` of the edge list and the weights. -/
theorem W3_norm (c : Dev nD) : W3 m ρ c (Proc.devRef .tc main_v31) = Cert.Gcn.norm (m ((c : Thread nD τ).loc main_arg1)) (m ((c : Thread nD τ).loc main_arg2)) := by
  have hd := W2_dinv m ρ c
  have hs := W2_src m ρ c
  have ht := W2_dst m ρ c
  have hw := W2_ew m ρ c
  show StableHlo.after hostOps0_2 (W2 m ρ c) (Proc.devRef .tc main_v31) = _
  generalize W2 m ρ c = V at hd hs ht hw ⊢
  after_results_simp
  rw [hd, hs, ht, hw]
  rfl
/-- … the label column the reshaped label vector. -/
theorem W3_lab (c : Dev nD) : W3 m ρ c (Proc.devRef .tc main_v32) = shapeCast S50000x1 (m ((c : Thread nD τ).loc main_arg0)) shapeCasts_S50000_S50000x1 := by
  have h0 := W2_main_arg0 m ρ c
  show StableHlo.after hostOps0_2 (W2 m ρ c) (Proc.devRef .tc main_v32) = _
  generalize W2 m ρ c = V at h0 ⊢
  after_results
  rw [h0]
  rfl
/-- The argument arrays are as launched when region 0 is entered. -/
theorem W3_arg (c : Dev nD) (k : Fin 8) :
    W3 m ρ c (Proc.devRef .tc (![main_arg0, main_arg1, main_arg2, main_arg3, main_arg4, main_arg5, main_arg6, main_arg7] k))
      = W0 m ρ c (Proc.devRef .tc (![main_arg0, main_arg1, main_arg2, main_arg3, main_arg4, main_arg5, main_arg6, main_arg7] k)) := by
  fin_cases k
  · exact W3_main_arg0 m ρ c
  · exact W3_main_arg1 m ρ c
  · exact W3_main_arg2 m ρ c
  · exact W3_main_arg3 m ρ c
  · exact W3_main_arg4 m ρ c
  · exact W3_main_arg5 m ρ c
  · exact W3_main_arg6 m ρ c
  · exact W3_main_arg7 m ρ c

end Cert.KernelIdeal.Host

end
-- ==== Proof.HostB.lean ====
/-
  The kernel program's host stretch between its second and third regions, read as a value: the first layer's
  aggregation of the second region's output (gather at the sources, scale by the normalisation, sum at the
  destinations, add the bias) followed by the relu. The sources, destinations and normalisation are the buffers the
  first stretch wrote; no region and no later operation writes them, nor any argument array.
-/
import proofs.«430550_j8693013807597_1_alg».proof.Proof.Gen.KernelIdeal.Frame
import proofs.«430550_j8693013807597_1_alg».proof.Proof.Gcn
import proofs.«430550_j8693013807597_1_alg».proof.Proof.HostA
import Idealize.ShloMosaic.Lib.StableHlo.Run

set_option maxRecDepth 16384

noncomputable section

namespace Cert.KernelIdeal.Host

open Idealize.ShloMosaic Idealize.ShloMosaic.TcCoe Idealize.SL.Sem Idealize.ShloMosaic.StableHlo Cert.KernelIdeal Cert.KernelIdeal.Gen

variable {F : FTy → Type} [FloatOps F] [Cert.ReferenceIdeal.Facts]
variable (m : (ℓ : Loc nD τ sig) → Buf (Elt F) ℓ) (ρ : Dev nD → PrngReg)

/-- Closes `after ops V b = V b` for a literal stretch `ops` none of whose operations writes the buffer `b`:
    each operation writes one buffer, another one. -/
local macro "stretch_keeps " ops:ident : tactic =>
  `(tactic| (refine StableHlo.after_of_forall_not_mem _ _ (List.forall_iff_forall_mem.mp ?_)
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

/-! ## At region 1's exit

Regions 0 and 1 write only their own output arrays, so the first stretch's three graph buffers and the later
arguments are as region 0 found them. -/

/-- Leaving region 1 the source-node buffer still holds `src` of the edge list. -/
theorem W5_src (c : Dev nD) : W5 m ρ c (Proc.devRef .tc main_v3) = Cert.Gcn.src (m ((c : Thread nD τ).loc main_arg1)) :=
  calc W5 m ρ c (Proc.devRef .tc main_v3)
    _ = W4 m ρ c (Proc.devRef .tc main_v3) := W5_of_ne m ρ c main_v3 (by decide)
    _ = W3 m ρ c (Proc.devRef .tc main_v3) := W4_of_ne m ρ c main_v3 (by decide)
    _ = _ := W3_src m ρ c

/-- … the destination-node buffer `dst`. -/
theorem W5_dst (c : Dev nD) : W5 m ρ c (Proc.devRef .tc main_v6) = Cert.Gcn.dst (m ((c : Thread nD τ).loc main_arg1)) :=
  calc W5 m ρ c (Proc.devRef .tc main_v6)
    _ = W4 m ρ c (Proc.devRef .tc main_v6) := W5_of_ne m ρ c main_v6 (by decide)
    _ = W3 m ρ c (Proc.devRef .tc main_v6) := W4_of_ne m ρ c main_v6 (by decide)
    _ = _ := W3_dst m ρ c

/-- … the normalisation buffer `norm` of the edge list and the weights. -/
theorem W5_norm (c : Dev nD) : W5 m ρ c (Proc.devRef .tc main_v31)
    = Cert.Gcn.norm (m ((c : Thread nD τ).loc main_arg1)) (m ((c : Thread nD τ).loc main_arg2)) :=
  calc W5 m ρ c (Proc.devRef .tc main_v31)
    _ = W4 m ρ c (Proc.devRef .tc main_v31) := W5_of_ne m ρ c main_v31 (by decide)
    _ = W3 m ρ c (Proc.devRef .tc main_v31) := W4_of_ne m ρ c main_v31 (by decide)
    _ = _ := W3_norm m ρ c

/-- The first bias is as launched when region 1 is left. -/
theorem W5_arg5 (c : Dev nD) : W5 m ρ c (Proc.devRef .tc main_arg5) = m ((c : Thread nD τ).loc main_arg5) :=
  calc W5 m ρ c (Proc.devRef .tc main_arg5)
    _ = W4 m ρ c (Proc.devRef .tc main_arg5) := W5_of_ne m ρ c main_arg5 (by decide)
    _ = W3 m ρ c (Proc.devRef .tc main_arg5) := W4_of_ne m ρ c main_arg5 (by decide)
    _ = W0 m ρ c (Proc.devRef .tc main_arg5) := W3_arg m ρ c 5
    _ = _ := rfl

/-- The second weight matrix is as launched when region 1 is left. -/
theorem W5_arg6 (c : Dev nD) : W5 m ρ c (Proc.devRef .tc main_arg6) = m ((c : Thread nD τ).loc main_arg6) :=
  calc W5 m ρ c (Proc.devRef .tc main_arg6)
    _ = W4 m ρ c (Proc.devRef .tc main_arg6) := W5_of_ne m ρ c main_arg6 (by decide)
    _ = W3 m ρ c (Proc.devRef .tc main_arg6) := W4_of_ne m ρ c main_arg6 (by decide)
    _ = W0 m ρ c (Proc.devRef .tc main_arg6) := W3_arg m ρ c 6
    _ = _ := rfl

/-! ## The two stretches, from any contents

The first layer's operations are `layer`'s own, over whatever the source, destination and normalisation buffers
hold; the outlined relu's are `relu`'s. Stated over arbitrary contents `V`, so that nothing is computed through the
regions. -/

/-- The first layer's stretch, from contents `V` whose three graph buffers hold `src`, `dst`, `norm`. -/
theorem hostOps2_layer (V : Valuation τ sig (Elt F)) (ei : IVec S2x1600000 32) (w : FVec F S1600000 .f32)
    (h3 : V (Proc.devRef .tc main_v3) = Cert.Gcn.src ei) (h6 : V (Proc.devRef .tc main_v6) = Cert.Gcn.dst ei)
    (h31 : V (Proc.devRef .tc main_v31) = Cert.Gcn.norm ei w) :
    StableHlo.after hostOps2 V (Proc.devRef .tc main_v50)
      = Cert.Gcn.layer ei w (V (Proc.devRef .tc main_v34)) (V (Proc.devRef .tc main_arg5)) := by
  after_results_simp
  rw [h3, h6, h31]
  rfl

/-- The relu stretch, from any contents. -/
theorem hostOps2_1_relu (V : Valuation τ sig (Elt F)) :
    StableHlo.after hostOps2_1 V (Proc.devRef .tc main_v51) = Cert.Gcn.relu (V (Proc.devRef .tc main_v50)) := by
  after_results_simp
  rfl

/-! ## The three facts -/

/-- The first weight matrix is as launched when region 1 is entered. -/
theorem W4_arg4 (c : Dev nD) : W4 m ρ c (Proc.devRef .tc main_arg4) = (m ((c : Thread nD τ).loc main_arg4)) :=
  calc W4 m ρ c (Proc.devRef .tc main_arg4)
    _ = W3 m ρ c (Proc.devRef .tc main_arg4) := W4_of_ne m ρ c main_arg4 (by decide)
    _ = W0 m ρ c (Proc.devRef .tc main_arg4) := W3_arg m ρ c 4
    _ = _ := rfl

/-- Entering region 2 the feature buffer holds `relu (layer (region 1's output) b1)`. -/
theorem W7_h1 (c : Dev nD) : W7 m ρ c (Proc.devRef .tc main_v51)
    = Cert.Gcn.relu (Cert.Gcn.layer (m ((c : Thread nD τ).loc main_arg1)) (m ((c : Thread nD τ).loc main_arg2)) (W5 m ρ c (Proc.devRef .tc main_v34)) (m ((c : Thread nD τ).loc main_arg5))) :=
  calc W7 m ρ c (Proc.devRef .tc main_v51)
    _ = Cert.Gcn.relu (W6 m ρ c (Proc.devRef .tc main_v50)) := hostOps2_1_relu (W6 m ρ c)
    _ = Cert.Gcn.relu (Cert.Gcn.layer (m ((c : Thread nD τ).loc main_arg1)) (m ((c : Thread nD τ).loc main_arg2))
          (W5 m ρ c (Proc.devRef .tc main_v34)) (W5 m ρ c (Proc.devRef .tc main_arg5))) :=
        congrArg Cert.Gcn.relu (hostOps2_layer (W5 m ρ c) _ _ (W5_src m ρ c) (W5_dst m ρ c) (W5_norm m ρ c))
    _ = _ := by rw [W5_arg5 m ρ c]

/-- The second weight matrix is as launched when region 2 is entered. -/
theorem W7_arg6 (c : Dev nD) : W7 m ρ c (Proc.devRef .tc main_arg6) = (m ((c : Thread nD τ).loc main_arg6)) :=
  calc W7 m ρ c (Proc.devRef .tc main_arg6)
    _ = W6 m ρ c (Proc.devRef .tc main_arg6) := by stretch_keeps hostOps2_1
    _ = W5 m ρ c (Proc.devRef .tc main_arg6) := by stretch_keeps hostOps2
    _ = _ := W5_arg6 m ρ c

end Cert.KernelIdeal.Host

end
-- ==== Proof.HostC.lean ====
/-
  The kernel program's host stretch after its last region, read as a value: the second layer's aggregation of
  the third region's output with the second bias, over the sources, destinations and normalisation the first
  stretch wrote (nothing in between writes them: the three regions write only their own output arrays, and the
  first layer's operations and the relu write their own results).
-/
import proofs.«430550_j8693013807597_1_alg».proof.Proof.Gen.KernelIdeal.Frame
import proofs.«430550_j8693013807597_1_alg».proof.Proof.Gcn
import proofs.«430550_j8693013807597_1_alg».proof.Proof.HostA
import Idealize.ShloMosaic.Lib.StableHlo.Run

set_option maxRecDepth 16384

noncomputable section

namespace Cert.KernelIdeal.Host

open Idealize.ShloMosaic Idealize.ShloMosaic.TcCoe Idealize.SL.Sem Idealize.ShloMosaic.StableHlo Cert.KernelIdeal Cert.KernelIdeal.Gen

variable {F : FTy → Type} [FloatOps F] [Cert.ReferenceIdeal.Facts]
variable (m : (ℓ : Loc nD τ sig) → Buf (Elt F) ℓ) (ρ : Dev nD → PrngReg)

/-- A buffer none of a stretch's operations writes: each operation writes one buffer, another one. -/
local macro "not_written_by" s:ident : tactic => `(tactic| exact List.forall_iff_forall_mem.mp (by
  simp only [$s:ident, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-- From region 0's entry to the last stretch a buffer that is no region's array and that neither the first layer's
    operations nor the relu write keeps its contents. -/
theorem W8_eq_W3 (c : Dev nD) (b : Ref sig .tc) (h0 : ∀ w, Pipeline.arrRef spec0 w ≠ b) (h1 : ∀ w, Pipeline.arrRef spec1 w ≠ b)
    (h2 : ∀ w, Pipeline.arrRef spec2 w ≠ b)
    (hA : ∀ op ∈ (hostOps2 : List (HloOp τ sig (Elt F))), Proc.devRef .tc b ∉ op.writes)
    (hB : ∀ op ∈ (hostOps2_1 : List (HloOp τ sig (Elt F))), Proc.devRef .tc b ∉ op.writes) :
    W8 m ρ c (Proc.devRef .tc b) = W3 m ρ c (Proc.devRef .tc b) :=
  calc W8 m ρ c (Proc.devRef .tc b)
    _ = W7 m ρ c (Proc.devRef .tc b) := W8_of_ne m ρ c b h2
    _ = W6 m ρ c (Proc.devRef .tc b) := StableHlo.after_of_forall_not_mem (b := Proc.devRef .tc b) _ _ hB
    _ = W5 m ρ c (Proc.devRef .tc b) := StableHlo.after_of_forall_not_mem (b := Proc.devRef .tc b) _ _ hA
    _ = W4 m ρ c (Proc.devRef .tc b) := W5_of_ne m ρ c b h1
    _ = W3 m ρ c (Proc.devRef .tc b) := W4_of_ne m ρ c b h0

/-- The sources, as the last stretch finds them. -/
theorem W8_src (c : Dev nD) : W8 m ρ c (Proc.devRef .tc main_v3) = Cert.Gcn.src (m ((c : Thread nD τ).loc main_arg1)) :=
  (W8_eq_W3 m ρ c main_v3 (by decide) (by decide) (by decide) (by not_written_by hostOps2) (by not_written_by hostOps2_1)).trans (W3_src m ρ c)
/-- The destinations, as the last stretch finds them. -/
theorem W8_dst (c : Dev nD) : W8 m ρ c (Proc.devRef .tc main_v6) = Cert.Gcn.dst (m ((c : Thread nD τ).loc main_arg1)) :=
  (W8_eq_W3 m ρ c main_v6 (by decide) (by decide) (by decide) (by not_written_by hostOps2) (by not_written_by hostOps2_1)).trans (W3_dst m ρ c)
/-- The normalisation, as the last stretch finds it. -/
theorem W8_norm (c : Dev nD) : W8 m ρ c (Proc.devRef .tc main_v31) = Cert.Gcn.norm (m ((c : Thread nD τ).loc main_arg1)) (m ((c : Thread nD τ).loc main_arg2)) :=
  (W8_eq_W3 m ρ c main_v31 (by decide) (by decide) (by decide) (by not_written_by hostOps2) (by not_written_by hostOps2_1)).trans (W3_norm m ρ c)
/-- The second bias is as launched. -/
theorem W8_arg7 (c : Dev nD) : W8 m ρ c (Proc.devRef .tc main_arg7) = (m ((c : Thread nD τ).loc main_arg7)) :=
  (W8_eq_W3 m ρ c main_arg7 (by decide) (by decide) (by decide) (by not_written_by hostOps2) (by not_written_by hostOps2_1)).trans (W3_arg m ρ c 7)

/-- The program's result is `layer (region 2's output) b2`. -/
theorem W9_out (c : Dev nD) : W9 m ρ c (Proc.devRef .tc main_v68)
    = Cert.Gcn.layer (m ((c : Thread nD τ).loc main_arg1)) (m ((c : Thread nD τ).loc main_arg2)) (W8 m ρ c (Proc.devRef .tc main_v52)) (m ((c : Thread nD τ).loc main_arg7)) := by
  have h3 := W8_src m ρ c
  have h6 := W8_dst m ρ c
  have h31 := W8_norm m ρ c
  have h7 := W8_arg7 m ρ c
  show StableHlo.after hostOps3 (W8 m ρ c) (Proc.devRef .tc main_v68) = _
  after_results_simp
  rw [h3, h6, h31, h7]
  rfl

end Cert.KernelIdeal.Host

end
-- ==== Proof.lean ====
/-
  The certificate of a two-layer graph-convolution encoder: a Pallas program of three kernel regions (the embedding
  lookup as a one-hot matrix product, and the two layers' linear transforms X·W, each tiled over the node axis)
  among host stretches that build the normalised adjacency once and aggregate twice, against a plain jnp reference
  that gathers the embedding rows, multiplies on the host and rebuilds the normalisation in each layer.

  At the ideal instance (floats are extended reals, a change of float format is the identity) both programs compute
      layer (relu (layer (E[labels] · W1) b1) · W2) b2,    layer xw b = (Σ_{e : dst e = d} xw (src e, ·) · norm e) + b :
  * the host stretches of the kernel program are operation for operation the reference's (`Cert.Gcn`, read off
    each boundary of the run);
  * a tiled product into a zero accumulator is, entry by entry, the plain sum Σ_k x (i, k) · w (k, j) that the host's
    dot_general is, and the blocks tile the rows;
  * the one-hot product Σ_k [label i = k] · E (k, j) is E (label i, j) when 0 ≤ label i < 1000 — the added
    precondition, under which the reference's gather neither wraps nor clamps. Outside that range the reference
    clamps while the one-hot row is zero, so the range is needed.
  The three frames are the generated ones (the reference's is its run with the result dropped); the ideal pass
  rewrote nothing, so `preserves` is trivial.
-/
import proofs.«430550_j8693013807597_1_alg».proof.Defs
import proofs.«430550_j8693013807597_1_alg».proof.Proof.Gen.Kernel
import proofs.«430550_j8693013807597_1_alg».proof.Proof.Gen.Kernel.Skeleton
import proofs.«430550_j8693013807597_1_alg».proof.Proof.Gen.Kernel.Launch
import proofs.«430550_j8693013807597_1_alg».proof.Proof.Gen.Kernel.Points
import proofs.«430550_j8693013807597_1_alg».proof.Proof.Gen.Kernel.Frame
import proofs.«430550_j8693013807597_1_alg».proof.Proof.Gen.KernelIdeal
import proofs.«430550_j8693013807597_1_alg».proof.Proof.Gen.KernelIdeal.Skeleton
import proofs.«430550_j8693013807597_1_alg».proof.Proof.Gen.KernelIdeal.Launch
import proofs.«430550_j8693013807597_1_alg».proof.Proof.Gen.KernelIdeal.Points
import proofs.«430550_j8693013807597_1_alg».proof.Proof.Gen.KernelIdeal.Frame
import proofs.«430550_j8693013807597_1_alg».proof.Proof.Gen.ReferenceIdeal
import proofs.«430550_j8693013807597_1_alg».proof.Proof.Gen.Pre_finite_inputs
import proofs.«430550_j8693013807597_1_alg».proof.Proof.KRun
import proofs.«430550_j8693013807597_1_alg».proof.Proof.RefValue
import proofs.«430550_j8693013807597_1_alg».proof.Proof.PreRange
import proofs.«430550_j8693013807597_1_alg».proof.Proof.Region0
import proofs.«430550_j8693013807597_1_alg».proof.Proof.Region1
import proofs.«430550_j8693013807597_1_alg».proof.Proof.Region2
import proofs.«430550_j8693013807597_1_alg».proof.Proof.HostA
import proofs.«430550_j8693013807597_1_alg».proof.Proof.HostB
import proofs.«430550_j8693013807597_1_alg».proof.Proof.HostC
import Idealize.ShloMosaic.Adequacy
import Idealize.ShloMosaic.Init

set_option maxRecDepth 16384

noncomputable section

namespace Cert.Proof

open Idealize.ShloMosaic Idealize.ShloMosaic.TcCoe Idealize.SL.Sem

section KernelValue

open Cert.KernelIdeal Cert.KernelIdeal.Gen

variable (m : (ℓ : Loc nD τ sig) → Buf (Elt Ideal) ℓ) (ρ : Dev nD → PrngReg)

/-- Region 0's output, as region 1 finds it: the embedding rows at the labels. -/
theorem x0_eq (hpre : Cert.Pre_KernelIdeal m) (c : Dev nD) :
    V4 m ρ c main_v33 = Cert.Gcn.look (F := Ideal) (m ((c : Thread nD τ).loc main_arg3)) (m ((c : Thread nD τ).loc main_arg0)) := by
  have h3 : V3 m ρ c main_arg3 = m ((c : Thread nD τ).loc main_arg3) := Cert.KernelIdeal.Host.W3_arg m ρ c 3
  have e := Cert.KernelIdeal.Region0.arr_eq_look (V3 m ρ) c (m ((c : Thread nD τ).loc main_arg0))
    (Cert.KernelIdeal.Host.W3_lab m ρ c) (fun i => Cert.PreRange.labels_range _ _ _ _ _ _ _ _ (hpre c) i)
  rw [h3] at e
  exact (W4_arr m ρ c 2).trans e

/-- Region 1's output, as the host stretch after it finds it: the looked-up embeddings times the first weights. -/
theorem xw1_eq (hpre : Cert.Pre_KernelIdeal m) (c : Dev nD) :
    W5 m ρ c (Proc.devRef .tc main_v34)
      = Cert.Gcn.dot (Cert.Gcn.look (F := Ideal) (m ((c : Thread nD τ).loc main_arg3)) (m ((c : Thread nD τ).loc main_arg0))) (m ((c : Thread nD τ).loc main_arg4)) := by
  have e := Cert.KernelIdeal.Region1.arr_eq_dot (V4 m ρ) c
  have h4 : V4 m ρ c main_arg4 = m ((c : Thread nD τ).loc main_arg4) := Cert.KernelIdeal.Host.W4_arg4 m ρ c
  rw [x0_eq m ρ hpre c, h4] at e
  exact (W5_arr m ρ c 2).trans e

/-- Region 2's output: the first layer's activations times the second weights. -/
theorem xw2_eq (hpre : Cert.Pre_KernelIdeal m) (c : Dev nD) :
    W8 m ρ c (Proc.devRef .tc main_v52)
      = Cert.Gcn.dot (Cert.Gcn.relu (Cert.Gcn.layer (F := Ideal) (m ((c : Thread nD τ).loc main_arg1)) (m ((c : Thread nD τ).loc main_arg2))
          (Cert.Gcn.dot (Cert.Gcn.look (m ((c : Thread nD τ).loc main_arg3)) (m ((c : Thread nD τ).loc main_arg0))) (m ((c : Thread nD τ).loc main_arg4)))
          (m ((c : Thread nD τ).loc main_arg5)))) (m ((c : Thread nD τ).loc main_arg6)) := by
  have e := Cert.KernelIdeal.Region2.arr_eq_dot (V7 m ρ) c
  have h51 : V7 m ρ c main_v51 = _ := Cert.KernelIdeal.Host.W7_h1 m ρ c
  have h6 : V7 m ρ c main_arg6 = m ((c : Thread nD τ).loc main_arg6) := Cert.KernelIdeal.Host.W7_arg6 m ρ c
  rw [h51, h6, xw1_eq m ρ hpre c] at e
  exact (W8_arr m ρ c 2).trans e

/-- THE KERNEL PROGRAM'S RESULT: the encoder of the argument arrays. -/
theorem out_eq (hpre : Cert.Pre_KernelIdeal m) (c : Dev nD) :
    W9 m ρ c (Proc.devRef .tc main_v68) = Cert.Gcn.net (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) := by
  rw [Cert.KernelIdeal.Host.W9_out m ρ c, xw2_eq m ρ hpre c]
  rfl

end KernelValue

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs, run from memories that agree on the arguments, end with the encoder of those arguments. -/
theorem algebraic : Cert.algebraic_KernelIdeal_ReferenceIdeal := by
  intro m ρ m' ρ' hpre hagree
  refine ⟨fun c => Cert.Gcn.net (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun _ h c => ⟨(h c).1.trans (out_eq m ρ hpre c), (h c).2⟩)
      (Cert.KernelIdeal.KRun.run_out (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.res_eq, (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
